-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024x512 : Shape := ⟨2, ![1024, 512]⟩
abbrev S1024 : Shape := ⟨1, ![1024]⟩
abbrev S512 : Shape := ⟨1, ![512]⟩
abbrev S512x1 : Shape := ⟨2, ![512, 1]⟩
abbrev S_ : Shape := ⟨0, ![]⟩

abbrev nBuf : Space → Nat
  | .hbm => 9
  | .vmem => 12
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S1x8192, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .i32⟩
  | .local _ .vmem, ⟨5, _⟩ => ⟨S1024x1, .i32⟩
  | .local _ .vmem, ⟨6, _⟩ => ⟨S1x512, .i32⟩
  | .local _ .vmem, ⟨7, _⟩ => ⟨S1x512, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v49 : BitVec 1 := Scalar.cmpi .eq arg1 c15_i32
  let v50 : BitVec 32 := Scalar.extui v49
  let c0_i32_24 : BitVec 32 := 0#32
  let v51 : BitVec 1 := Scalar.cmpi .ne v50 c0_i32_24
  v51

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  inb_S512x128_S512x128_0_0 : ∀ a, (![0, 0] : Fin 2 → Nat) a + S512x128.size a ≤ S512x128.size a
  h_S512x128 : 0 < S512x128.numel
  bitsLt_bf16_f32 : FTy.bits .bf16 < FTy.bits .f32
  reduces_S1024x128_S1024 : S1024x128.Reduces [1] S1024
  shapeCasts_S1024_S1024x1 : S1024.ShapeCasts S1024x1
  reduces_S512x128_S512 : S512x128.Reduces [1] S512
  shapeCasts_S512_S512x1 : S512.ShapeCasts S512x1
  transposes_S512x1_p1_0_S1x512 : S512x1.Transposes [1, 0] S1x512
  broadcasts_S1024x1_S1024x512 : S1024x1.Broadcasts S1024x512
  broadcasts_S1x512_S1024x512 : S1x512.Broadcasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  reducesTo_S8192x1_S_d0_1 : S8192x1.ReducesTo [0, 1] S_
  h_S_ : 0 < S_.numel
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .i32 = 32 ∨ (Rect.block (s := S1x8192) S1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 48
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S8192x1, .i32⟩
  | .hbm, ⟨21, _⟩ => ⟨S1x8192, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S8192x8192, .f32⟩
  | .hbm, ⟨34, _⟩ => ⟨S8192x8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_call1_v0 : Ref sig .tc := ⟨.hbm, 32, rfl⟩
abbrev main_call1_v1 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_call2_cst : Ref sig .tc := ⟨.hbm, 41, rfl⟩
abbrev main_call2_v0 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KB.Runs.lean ====
/-
  The kernel body at one grid point, in each of its three control cases.

  A point (i, j) of the 8 × 16 grid handles row tile i (1024 rows) against column tile j (512 rows of the same
  array). The body keeps two 1024 × 1 accumulators between points: the running maximum of the masked distances
  (same-label entries) and the running minimum (other-label entries). At j = 0 it first resets them to 0 and +∞;
  at every j it folds the tile's row maxima and minima into them; at j = 15 it also writes
  max(accMax - accMin + margin, 0) into the output block. So there are three cases: j = 0 (reset, then
  accumulate), 0 < j < 15 (accumulate), j = 15 (accumulate, then emit). In each the accumulators end at the
  payload terms below, the inputs' buffers are left as found, and the output's buffer is untouched (first two
  cases) or holds the emitted block (last case).
-/
import proofs.«175456_j39599598469579_1_alg».proof.Proof.Gen.Kernel.Launch
import proofs.«175456_j39599598469579_1_alg».proof.Proof.Gen.Kernel.Skeleton
import proofs.«175456_j39599598469579_1_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : (![0, 0] : Fin 2 → Nat) = fun _ => 0 := by funext a; fin_cases a <;> rfl

/-- The body's first branch is taken exactly when the column coordinate is 0, -/
abbrev cond1 (i : grid0.Coords) : Prop := (Scalar.cmpi .ne (Scalar.extui (Scalar.cmpi .eq (BitVec.ofNat 32 (i 1).val) 0#32)) 0#32) = 1#1
/-- and its last exactly when the column coordinate is 15. -/
abbrev cond2 (i : grid0.Coords) : Prop := k0_cond2 i = 1#1

/-- In the row-major walk of the grid the column coordinate of point t is t mod 16. -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-- The tile's contribution folded into the running maximum `s`: max(s, rowmax of the masked distances). -/
abbrev accMax (x0 : Vec F S1024x128 .f32) (x1 : Vec F S512x128 .f32) (l0 : Vec F S1024x1 .i32) (l1 : Vec F S1x512 .i32)
    (s : Vec F S1024x1 .f32) : Vec F S1024x1 .f32 := k0_pay1 (k0_pay8 x0 x1 l0 l1) s
/-- The tile's contribution folded into the running minimum `s`. -/
abbrev accMin (x0 : Vec F S1024x128 .f32) (x1 : Vec F S512x128 .f32) (l0 : Vec F S1024x1 .i32) (l1 : Vec F S1x512 .i32)
    (s : Vec F S1024x1 .f32) : Vec F S1024x1 .f32 := k0_pay2 (k0_pay9 x0 x1 l0 l1) s

set_option maxHeartbeats 1000000 in
/-- Column tile 0: from any accumulator contents, reset then accumulate; the output's buffer is left as found. -/
theorem runA (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : cond1 i) (hc2 : ¬cond2 i) (x0 : Vec F S1024x128 .f32) (x1 : Vec F S512x128 .f32) (l0 : Vec F S1024x1 .i32) (l1 : Vec F S1x512 .i32) (o : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
            ∗ owns (c : Thread nD τ) arg7 fullShare (accMax x0 x1 l0 l1 (k0_pay4 (F := F)))
            ∗ owns (c : Thread nD τ) arg8 fullShare (accMin x0 x1 l0 l1 (k0_pay5 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8) K := by
  sl_unfold [cc0__triplet_kernel]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  · iexists _; isplitr
    swap; · iexact HS1
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]

set_option maxHeartbeats 1000000 in
/-- A middle column tile: accumulate into what the point before left; the output's buffer is left as found. -/
theorem runB (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : ¬cond2 i) (x0 : Vec F S1024x128 .f32) (x1 : Vec F S512x128 .f32) (l0 : Vec F S1024x1 .i32) (l1 : Vec F S1x512 .i32) (o : Vec F S1024x1 .f32)
    (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
            ∗ owns (c : Thread nD τ) arg7 fullShare (accMax x0 x1 l0 l1 s0)
            ∗ owns (c : Thread nD τ) arg8 fullShare (accMin x0 x1 l0 l1 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  sl_unfold [cc0__triplet_kernel]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hs0; obtain rfl := harg8.eq_unread hs1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  · iexists _; isplitr
    swap; · iexact HS1
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]

set_option maxHeartbeats 1000000 in
/-- The last column tile: accumulate, then emit max(accMax - accMin + margin, 0) into the output's buffer,
    whatever it held. -/
theorem runC (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : cond2 i) (x0 : Vec F S1024x128 .f32) (x1 : Vec F S512x128 .f32) (l0 : Vec F S1024x1 .i32) (l1 : Vec F S1x512 .i32)
    (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l0
        ∗ owns (c : Thread nD τ) arg5 fullShare l1
            ∗ owns (c : Thread nD τ) arg6 fullShare (k0_pay3 (accMax x0 x1 l0 l1 s0) (accMin x0 x1 l0 l1 s1))
            ∗ owns (c : Thread nD τ) arg7 fullShare (accMax x0 x1 l0 l1 s0)
            ∗ owns (c : Thread nD τ) arg8 fullShare (accMin x0 x1 l0 l1 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  sl_unfold [cc0__triplet_kernel]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3
  obtain rfl := harg7.eq_unread hs0; obtain rfl := harg8.eq_unread hs1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  isplitl [HS0]
  · iexists _; isplitr
    swap; · iexact HS0
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  · iexists _; isplitr
    swap; · iexact HS1
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]

end Cert.Kernel.Hand

end
-- ==== Proof.KB.Data.lean ====
/-
  The proof data of the one pipeline: what every window's buffer and the two accumulators hold, point by point.

  The region is entered after the two reshapes of the labels (to a column and to a row); `V` is the memory then.
  Window 0 stages row tile i of the embeddings, window 1 column tile j of THE SAME array, windows 2 and 3 the
  matching labels, window 4 the output block of row tile i. Point t = 16 i + j. After point t the accumulators hold
  `S0 t`, `S1 t`: the fold of the tiles j' ≤ j of row tile i from (0, +∞), restarted whenever j = 0. The output
  block written back at j = 15 is max(S0 - S1 + margin, 0). The embeddings are read through two windows, so each
  holds half of the array's share.
-/
import proofs.«175456_j39599598469579_1_alg».proof.Proof.KB.Runs
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the region is entered -/

/-- Core `c`'s buffers after the two reshapes of the labels, as a valuation, -/
abbrev V0 (c : Dev nD) : Valuation τ sig (Elt F) := StableHlo.after (List.flatten [hostOps0]) (fun b => m (c, b))
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row tile, the column tile, the row tile's labels
    (a column), the column tile's labels (a row). -/
abbrev qblk (c : Dev nD) (t : Fin cfg0.N) : Vec F S1024x128 .f32 := iblk m c 0 t
abbrev kblk (c : Dev nD) (t : Fin cfg0.N) : Vec F S512x128 .f32 := iblk m c 1 t
abbrev lrow (c : Dev nD) (t : Fin cfg0.N) : Vec F S1024x1 .i32 := iblk m c 2 t
abbrev lcol (c : Dev nD) (t : Fin cfg0.N) : Vec F S1x512 .i32 := iblk m c 3 t

/-! ## The accumulators after each point -/

/-- The running maximum after point `n`: this tile folded into what the point before left, or into 0 at the first
    column tile of a row tile. -/
def S0 (c : Dev nD) : (n : ℕ) → n < cfg0.N → Vec F S1024x1 .f32
  | 0, hn => accMax (qblk m c ⟨0, hn⟩) (kblk m c ⟨0, hn⟩) (lrow m c ⟨0, hn⟩) (lcol m c ⟨0, hn⟩) (k0_pay4 (F := F))
  | n + 1, hn => accMax (qblk m c ⟨n + 1, hn⟩) (kblk m c ⟨n + 1, hn⟩) (lrow m c ⟨n + 1, hn⟩) (lcol m c ⟨n + 1, hn⟩)
      (if (n + 1) % 16 = 0 then (k0_pay4 (F := F)) else S0 c n (Nat.lt_of_succ_lt hn))

/-- The running minimum after point `n`, from +∞ likewise. -/
def S1 (c : Dev nD) : (n : ℕ) → n < cfg0.N → Vec F S1024x1 .f32
  | 0, hn => accMin (qblk m c ⟨0, hn⟩) (kblk m c ⟨0, hn⟩) (lrow m c ⟨0, hn⟩) (lcol m c ⟨0, hn⟩) (k0_pay5 (F := F))
  | n + 1, hn => accMin (qblk m c ⟨n + 1, hn⟩) (kblk m c ⟨n + 1, hn⟩) (lrow m c ⟨n + 1, hn⟩) (lcol m c ⟨n + 1, hn⟩)
      (if (n + 1) % 16 = 0 then (k0_pay5 (F := F)) else S1 c n (Nat.lt_of_succ_lt hn))

/-- At a first column tile the fold restarts: -/
theorem S0_reset (c : Dev nD) (t : Fin cfg0.N) (h : t.val % 16 = 0) :
    S0 m c t.val t.isLt = accMax (qblk m c t) (kblk m c t) (lrow m c t) (lcol m c t) (k0_pay4 (F := F)) := by
  obtain ⟨n, hn⟩ := t
  cases n with
  | zero => rfl
  | succ n => show accMax _ _ _ _ (if (n + 1) % 16 = 0 then _ else _) = _; rw [if_pos h]
theorem S1_reset (c : Dev nD) (t : Fin cfg0.N) (h : t.val % 16 = 0) :
    S1 m c t.val t.isLt = accMin (qblk m c t) (kblk m c t) (lrow m c t) (lcol m c t) (k0_pay5 (F := F)) := by
  obtain ⟨n, hn⟩ := t
  cases n with
  | zero => rfl
  | succ n => show accMin _ _ _ _ (if (n + 1) % 16 = 0 then _ else _) = _; rw [if_pos h]

/-- elsewhere it continues from the point before. -/
theorem S0_step (c : Dev nD) (t : Fin cfg0.N) (h : ¬t.val % 16 = 0) :
    S0 m c t.val t.isLt = accMax (qblk m c t) (kblk m c t) (lrow m c t) (lcol m c t)
      (S0 m c (t.val - 1) (Nat.lt_of_le_of_lt (Nat.sub_le _ _) t.isLt)) := by
  obtain ⟨n, hn⟩ := t
  cases n with
  | zero => exact absurd (Nat.zero_mod _) h
  | succ n => show accMax _ _ _ _ (if (n + 1) % 16 = 0 then _ else _) = _; rw [if_neg h]; rfl
theorem S1_step (c : Dev nD) (t : Fin cfg0.N) (h : ¬t.val % 16 = 0) :
    S1 m c t.val t.isLt = accMin (qblk m c t) (kblk m c t) (lrow m c t) (lcol m c t)
      (S1 m c (t.val - 1) (Nat.lt_of_le_of_lt (Nat.sub_le _ _) t.isLt)) := by
  obtain ⟨n, hn⟩ := t
  cases n with
  | zero => exact absurd (Nat.zero_mod _) h
  | succ n => show accMin _ _ _ _ (if (n + 1) % 16 = 0 then _ else _) = _; rw [if_neg h]; rfl

/-! ## The invariant between points: the two accumulators -/

/-- The accumulators as memrefs: whole scoped buffers of the kernel's own. -/
abbrev scM0 : Memref sig .tc .vmem S1024x1 .f32 := Memref.whole cc0_scratch0
abbrev scM1 : Memref sig .tc .vmem S1024x1 .f32 := Memref.whole cc0_scratch1

/-- Before the first point they hold anything; after point `n` they hold `S0 n`, `S1 n`. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (S0 m c n hn) ∗ owns (c : Thread nD τ) scM1 fullShare (S1 m c n hn))

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl
theorem PhiS_succ (c : Dev nD) (n : ℕ) (hn : n < cfg0.N) :
    PhiS m c (n + 1) hn = iprop(owns (c : Thread nD τ) scM0 fullShare (S0 m c n hn) ∗ owns (c : Thread nD τ) scM1 fullShare (S1 m c n hn)) := rfl
theorem PhiS_pos (c : Dev nD) (n : ℕ) (h : n ≤ cfg0.N) (hz : n ≠ 0) :
    PhiS m c n h = iprop(owns (c : Thread nD τ) scM0 fullShare (S0 m c (n - 1) (by omega)) ∗ owns (c : Thread nD τ) scM1 fullShare (S1 m c (n - 1) (by omega))) := by
  cases n with
  | zero => exact absurd rfl hz
  | succ n => rfl

/-! ## The proof data -/

/-- The arrays as the region finds them; after the body each input's buffer at its block, the output's at the emitted
    block; the accumulators in the invariant; nothing owed; the embeddings' share halved between the two windows that
    read them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (S0 m c t.val t.isLt) (S1 m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay3 (S0 m c t.val t.isLt) (S1 m c t.val t.isLt) := by dsimp only [dats]

/-- Each input's current buffer holds its block at every point, fetched there or not (unfetched, the block index has
    not moved and the body left the block in place). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output is stored only at the last column tile; elsewhere its window is idle and not written back. -/
theorem idleAt0_4 : ∀ t : Fin cfg0.N, ¬cond2 (grid0.coords t) → cfg0.idle 4 (grid0.coords t) = true := by decide +kernel
theorem noFlush0_4 : ∀ t : Fin cfg0.N, ¬cond2 (grid0.coords t) → (cfg0.win 4).flush t = false := by decide +kernel
theorem liveAt0_4 : ∀ t : Fin cfg0.N, cond2 (grid0.coords t) → cfg0.idle 4 (grid0.coords t) = false := by decide +kernel

/-! ## The body obligation -/

/-- Each window's current staging memref at point `t`, as the pipeline passes it to the body, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. Each input's buffer holds its block; t mod 16 says which of the three cases the point
    is in. At a first column tile the accumulators are taken at whatever they hold (anything before the first
    point, the previous row tile's totals afterwards) and end at the restarted fold; elsewhere they are taken at
    the fold up to the point before and end at the fold up to this one. The output's buffer is handed back as
    found except at a last column tile, where it ends at the emitted block. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  by_cases h0 : t.val % 16 = 0
  · have hc1 : cond1 (grid0.coords t) := (hcond1 t).mpr h0
    have hc2 : ¬cond2 (grid0.coords t) := fun h => by have := (hcond2 t).mp h; omega
    rw [Dat.leavesExact_idle (dats m 0 c) 4 t (idleAt0_4 t hc2) (noFlush0_4 t hc2)]
    rw [S0_reset m c t h0, S1_reset m c t h0]
    by_cases hz : t.val = 0
    · rw [PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4
  · have hc1 : ¬cond1 (grid0.coords t) := fun h => h0 ((hcond1 t).mp h)
    have hz : t.val ≠ 0 := fun h => h0 (by rw [h])
    rw [S0_step m c t h0, S1_step m c t h0]
    rw [PhiS_castSucc m c t, PhiS_pos m c _ _ hz]
    by_cases h1 : t.val % 16 = 15
    · have hc2 : cond2 (grid0.coords t) := (hcond2 t).mpr h1
      rw [show (dats m 0 c).leavesExact 4 t = owns (c : Thread nD τ) (ms4 t) fullShare ((dats m 0 c).after 4 t) from by
        unfold Dat.leavesExact; rw [liveAt0_4 t hc2], after0_4]
      rw [S0_step m c t h0, S1_step m c t h0]
      iintro ⟨⟨HS0, HS1⟩, Ho, ⟨%d0, H0⟩, ⟨%d1, H1⟩, ⟨%d2, H2⟩, ⟨%d3, H3⟩, ⟨%d4, H4⟩⟩
      iapply (runC c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) (S0 m c (t.val - 1) (Nat.lt_of_le_of_lt (Nat.sub_le _ _) t.isLt)) (S1 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · have hc2 : ¬cond2 (grid0.coords t) := fun h => h1 ((hcond2 t).mp h)
      rw [Dat.leavesExact_idle (dats m 0 c) 4 t (idleAt0_4 t hc2) (noFlush0_4 t hc2)]
      iintro ⟨⟨HS0, HS1⟩, Ho, ⟨%d0, H0⟩, ⟨%d1, H1⟩, ⟨%d2, H2⟩, ⟨%d3, H3⟩, ⟨%d4, H4⟩⟩
      iapply (runB c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) ((dats m 0 c).before 4 t d4) (S0 m c (t.val - 1) (Nat.lt_of_le_of_lt (Nat.sub_le _ _) t.isLt)) (S1 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the kernel's own buffers is the invariant before the first point, -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl, scopedRest0_eq]
  simp only [scM0, scM1, owns_whole]
  exact Idealize.SL.BI.Entails.refl _

/-- and the invariant after the last point gives them back. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest0_eq]
  simp only [scM0, scM1, owns_whole]
  iintro ⟨H0, H1⟩
  isplitl [H0]
  · iexists _; iexact H0
  · iexists _; iexact H1

end Cert.Kernel.Hand

end
-- ==== Proof.KB.Launch.lean ====
/-
  The launch: @main is two reshapes of the labels, the kernel region, then the mean of the region's result
  (a constant 0, the sum over both axes, a constant 8192, the quotient).

  The region reads the embeddings through TWO windows, so the array's one buffer is dealt to them by halves of
  its share when the region is entered, and each window ends holding the same, unwritten, contents. The lines after
  the region read only the region's result array and write four buffers of their own, so they run holding that array
  and those four. The run ends with the result at the mean computed from what the region wrote back, and both
  arguments as they were.
-/
import proofs.«175456_j39599598469579_1_alg».proof.Proof.KB.Data
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later lines, entered at the memory after the two reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes write neither argument. -/
theorem V_main_arg0 (c : Dev nD) : V m c main_arg0 = m ((c : Thread nD τ).loc main_arg0) :=
  StableHlo.after_of_forall_not_mem (b := Proc.devRef .tc main_arg0) _ _ (by
    intro op hop
    simp only [List.flatten_cons, List.flatten_nil, List.append_nil, hostOps0, List.mem_cons, List.mem_nil_iff, or_false] at hop
    rcases hop with rfl | rfl <;> simp only [StableHlo.reshape_writes, Finset.mem_singleton] <;> exact StableHlo.devRef_ne_of_ne (by decide))
theorem V_main_arg1 (c : Dev nD) : V m c main_arg1 = m ((c : Thread nD τ).loc main_arg1) :=
  StableHlo.after_of_forall_not_mem (b := Proc.devRef .tc main_arg1) _ _ (by
    intro op hop
    simp only [List.flatten_cons, List.flatten_nil, List.append_nil, hostOps0, List.mem_cons, List.mem_nil_iff, or_false] at hop
    rcases hop with rfl | rfl <;> simp only [StableHlo.reshape_writes, Finset.mem_singleton] <;> exact StableHlo.devRef_ne_of_ne (by decide))

/-! ## What the lines after the region compute -/

/-- The losses the region wrote back, one per row: the result array after every write-back. -/
abbrev lossArr (c : Dev nD) : Buf (Elt F) ((c : Thread nD τ).loc main_v2) := (dats m 0 c).arrAt 4 cfg0.N

/-- The memory the later lines start from: the region's result array at the losses, everything else as entered. -/
def Wexit (c : Dev nD) : Valuation τ sig (Elt F) :=
  Function.update (V0 m c) (Proc.devRef .tc main_v2) (lossArr m c)

/-- and the memory after them. -/
def Wtail (c : Dev nD) : Valuation τ sig (Elt F) := StableHlo.after hostOps1 (Wexit m c)

/-- The program's result: the mean of the losses as the later lines compute it. -/
def result (c : Dev nD) : Buf (Elt F) ((c : Thread nD τ).loc main_v4) := Wtail m c (Proc.devRef .tc main_v4)

end Cert.Kernel.Hand

end
-- ==== Proof.KB.Run.lean ====
/-
  The run of @main: the launch of the region with the embeddings' buffer dealt to its two windows, the later lines
  run from the region's exit, and the final memory read back.
-/
import proofs.«175456_j39599598469579_1_alg».proof.Proof.KB.Launch
import Idealize.ShloMosaic.Lib.Pipeline.FrameSuffix
import Idealize.ShloMosaic.Lib.Pipeline.Kit

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares: the embeddings' buffer by halves, every other array whole -/

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl

/-- The windows' arrays, at any contents, one by one: each a whole buffer at its window's share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  simp only [(arr_whole0 0).set_eq_univ, (arr_whole0 2).set_eq_univ, (arr_whole0 3).set_eq_univ,
    (arr_whole0 4).set_eq_univ, share0, share1, share2, share3, share4]

/-- The four distinct buffers behind the five windows' arrays. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- Entering the region: the embeddings' buffer is dealt by halves to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, H0, H1, H2⟩
  ihave Hs := (pointsTo_share (PosShare.mem_left_op_right fullShare)).1 $$ Ha
  icases Hs with ⟨HaL, HaR⟩
  isplitl [HaL]; · iexact HaL
  isplitl [HaR]; · iexact HaR
  isplitl [H0]; · iexact H0
  isplitl [H1]; · iexact H1
  iexact H2

/-! ## The lines after the region -/

/-- The buffers the later lines touch: the region's result array and their own four. -/
def tailSet : Finset (DevRef τ sig) :=
  ([main_v2, main_cst, main_v3, main_cst_0, main_v4].map (Proc.devRef (τ := τ) (sig := sig) .tc)).toFinset

/-- Those five held at a valuation, one by one. -/
theorem held_tailSet (c : Dev nD) (W : Valuation τ sig (Elt F)) :
    (StableHlo.held (c : Thread nD τ) tailSet W : sProp 𝕄)
      = iprop((((c : Thread nD τ).loc main_v2) ↦{fullShare} W (Proc.devRef .tc main_v2))
          ∗ (((c : Thread nD τ).loc main_cst) ↦{fullShare} W (Proc.devRef .tc main_cst))
          ∗ (((c : Thread nD τ).loc main_v3) ↦{fullShare} W (Proc.devRef .tc main_v3))
          ∗ (((c : Thread nD τ).loc main_cst_0) ↦{fullShare} W (Proc.devRef .tc main_cst_0))
          ∗ (((c : Thread nD τ).loc main_v4) ↦{fullShare} W (Proc.devRef .tc main_v4))) := by
  unfold StableHlo.held tailSet
  rw [bigSep_eq_bigSepL _ (by decide)]
  rfl

theorem hostOps1_tailSet : ∀ op ∈ (hostOps1 : List (HloOp τ sig (Elt F))), op.bufs ⊆ tailSet := by
  intro op hop
  simp only [hostOps1, List.mem_cons, List.mem_nil_iff, or_false] at hop
  rcases hop with rfl | rfl | rfl | rfl
  · show ({(Proc.devRef .tc main_cst : DevRef τ sig)} : Finset (DevRef τ sig)) ⊆ tailSet
    unfold tailSet; decide
  · show ({(Proc.devRef .tc main_v2 : DevRef τ sig), Proc.devRef .tc main_cst, Proc.devRef .tc main_v3} : Finset (DevRef τ sig)) ⊆ tailSet
    unfold tailSet; decide
  · show ({(Proc.devRef .tc main_cst_0 : DevRef τ sig)} : Finset (DevRef τ sig)) ⊆ tailSet
    unfold tailSet; decide
  · show ({(Proc.devRef .tc main_v3 : DevRef τ sig), Proc.devRef .tc main_cst_0, Proc.devRef .tc main_v4} : Finset (DevRef τ sig)) ⊆ tailSet
    unfold tailSet; decide

theorem hostOps1_nofresh : ∀ op ∈ (hostOps1 : List (HloOp τ sig (Elt F))), op.fresh = ∅ :=
  List.forall_iff_forall_mem.mp hostOps1_fresh

/-- The later lines write neither the region's result array -/
theorem Wtail_main_v2 (c : Dev nD) : Wtail m c (Proc.devRef .tc main_v2) = lossArr m c := by
  unfold Wtail
  rw [StableHlo.after_of_forall_not_mem (b := Proc.devRef .tc main_v2) _ _ (by
    intro op hop
    simp only [hostOps1, List.mem_cons, List.mem_nil_iff, or_false] at hop
    rcases hop with rfl | rfl | rfl | rfl <;> simp only [StableHlo.nullary_writes, StableHlo.binary_writes, Finset.mem_singleton] <;> exact StableHlo.devRef_ne_of_ne (by decide))]
  unfold Wexit
  exact Function.update_self _ _ _

/-- nor the labels. -/
theorem Wtail_main_arg1 (c : Dev nD) : Wtail m c (Proc.devRef .tc main_arg1) = m ((c : Thread nD τ).loc main_arg1) := by
  unfold Wtail
  rw [StableHlo.after_of_forall_not_mem (b := Proc.devRef .tc main_arg1) _ _ (by
    intro op hop
    simp only [hostOps1, List.mem_cons, List.mem_nil_iff, or_false] at hop
    rcases hop with rfl | rfl | rfl | rfl <;> simp only [StableHlo.nullary_writes, StableHlo.binary_writes, Finset.mem_singleton] <;> exact StableHlo.devRef_ne_of_ne (by decide))]
  unfold Wexit
  rw [Function.update_of_ne (StableHlo.devRef_ne_of_ne (by decide))]
  exact V_main_arg1 m c

theorem Wexit_v2 (c : Dev nD) : Wexit m c (Proc.devRef .tc main_v2) = (dats m 0 c).arrAt 4 cfg0.N := by
  unfold Wexit; exact Function.update_self _ _ _
theorem Wexit_ne (c : Dev nD) (b : Ref sig .tc) (h : b ≠ main_v2) : Wexit m c (Proc.devRef .tc b) = V m c b := by
  unfold Wexit; exact Function.update_of_ne (StableHlo.devRef_ne_of_ne h) _ _

/-- What bypasses the region, as the later lines leave it: the labels and the lines' own four buffers. -/
def Ztail (c : Dev nD) : sProp 𝕄 :=
  iprop((((c : Thread nD τ).loc main_arg1) ↦{fullShare} V m c main_arg1)
    ∗ (((c : Thread nD τ).loc main_cst) ↦{fullShare} Wtail m c (Proc.devRef .tc main_cst))
    ∗ (((c : Thread nD τ).loc main_v3) ↦{fullShare} Wtail m c (Proc.devRef .tc main_v3))
    ∗ (((c : Thread nD τ).loc main_cst_0) ↦{fullShare} Wtail m c (Proc.devRef .tc main_cst_0))
    ∗ (((c : Thread nD τ).loc main_v4) ↦{fullShare} Wtail m c (Proc.devRef .tc main_v4)))

-- a rule stated for any thread, applied at the TensorCore thread, unifies only when unification may unfold plain
-- definitions in a metavariable's type
set_option backward.isDefEq.respectTransparency.types false in
/-- From the region's exit the four later lines run, holding the result array (read) and their own buffers (written),
    and hand the arrays back as they were. -/
theorem htail (c : Dev nD) (Q' : PUnit → sProp 𝕄) :
    iprop((iprop((dats m 0 c).arrays ((dats m 0 c).arrAt · cfg0.N) ∗ Ztail m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_eq, unscopedRest0_eq]
  iintro ⟨Hk, Hb, ⟨HaL, HaR, H0, H1, H2⟩, ⟨Harg1, Hcst, Hv3, Hcst0, Hv4⟩⟩
  rw [show (Pipeline.chain [StableHlo.seq (hostOps1 (F := F))] : Prog (TpuEff nD τ sig (Elt F) _ .tc) PUnit)
      = (StableHlo.seq hostOps1 >>= fun _ => pure ⟨⟩) from rfl]
  iapply (StableHlo.wp_seq (Variants.lift Variants.none) none Set.univ c tailSet (fun _ => pure ⟨⟩) hostOps1 hostOps1_tailSet hostOps1_nofresh (Wexit m c)) $$ [Hb H2 Hcst Hv3 Hcst0 Hv4]
  · isplitl [Hb]; · iexact Hb
    rw [held_tailSet, Wexit_v2, Wexit_ne m c main_cst (by decide), Wexit_ne m c main_v3 (by decide), Wexit_ne m c main_cst_0 (by decide), Wexit_ne m c main_v4 (by decide)]
    isplitl [H2]; · iexact H2
    isplitl [Hcst]; · iexact Hcst
    isplitl [Hv3]; · iexact Hv3
    isplitl [Hcst0]; · iexact Hcst0
    iexact Hv4
  iintro ⟨Hb, Hh⟩
  ihave Hh' := (show (StableHlo.held (c : Thread nD τ) tailSet (StableHlo.after hostOps1 (Wexit m c)) : sProp 𝕄) ⊢ _ from Entails.of_eq (held_tailSet c (Wtail m c))) $$ Hh
  icases Hh' with ⟨H2, Hcst, Hv3, Hcst0, Hv4⟩
  rw [wp_pure]
  imodintro
  iapply Hk
  isplitl [HaL HaR H0 H1 H2]
  · isplitl [HaL]; · iexact HaL
    isplitl [HaR]; · iexact HaR
    isplitl [H0]; · iexact H0
    isplitl [H1]; · iexact H1
    rw [show (dats m 0 c).arrAt 4 cfg0.N = Wtail m c (Proc.devRef .tc main_v2) from (Wtail_main_v2 m c).symm]
    iexact H2
  unfold Ztail
  isplitl [Harg1]; · iexact Harg1
  isplitl [Hcst]; · iexact Hcst
  isplitl [Hv3]; · iexact Hv3
  isplitl [Hcst0]; · iexact Hcst0
  iexact Hv4

/-! ## The run -/

/-- What the run ends in: the result at the mean the later lines compute, both arguments as they were. -/
def QFinal : PUnit × MemSt nD τ sig (Elt F) → Prop := fun r => ∀ c : Dev nD,
  r.2.mem ((c.tc : Thread nD τ).loc main_v4) = result m c
  ∧ r.2.mem ((c.tc : Thread nD τ).loc main_arg0) = m ((c.tc : Thread nD τ).loc main_arg0)
  ∧ r.2.mem ((c.tc : Thread nD τ).loc main_arg1) = m ((c.tc : Thread nD τ).loc main_arg1)

-- the launch theorem's implicit arguments are found by unifying its conclusion with this one, which takes unfolding
-- plain definitions in a metavariable's type
set_option backward.isDefEq.respectTransparency.types false in
/-- At the compiled mesh, for any float values, from any memory with zero counters: every weakly fair execution of @main
    on the TensorCores terminates, nothing faulting, with the result at `result` and both arguments unchanged. -/
theorem run_main : θ_run defs (onTc (τ := τ) (main (F := F))) (s₀ m ρ) (QFinal m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Ztail m)
    (hX := fun c => by
      rw [Pipeline.unscopedRestP_none]
      iintro H; isplitr; · iempintro
      iexact H)
    (hin := fun c => by
      iintro ⟨-, -, HR⟩
      iapply (hin m c); iexact HR)
    (hout := fun c => (hout m c).trans (by
      iintro H; isplitr; · iempintro
      iexact H))
    (htail := htail m)
    (QY := fun c s => s.mem ((c.tc : Thread nD τ).loc main_v4) = result m c
      ∧ s.mem ((c.tc : Thread nD τ).loc main_arg1) = m ((c.tc : Thread nD τ).loc main_arg1))
    (hY := fun c s' => by
      unfold Ztail
      iintro ⟨-, ⟨Harg1, -, -, -, Hv4⟩, HSI⟩
      icombine HSI Harg1 gives %h1
      icombine HSI Hv4 gives %h4
      imodintro
      isplitr
      · ipureintro; exact ⟨Buf.eq_of_forall_mem_univ h4, (Buf.eq_of_forall_mem_univ h1).trans (V_main_arg1 m c)⟩
      iexact HSI)
    (hQ := fun s h c => ⟨(h c).2.2.1,
      ((h c).1 0).trans (((dats m 0 c).arrAt_in 0 rfl _).trans ((A_eq m c 0).trans (V_main_arg0 m c))), (h c).2.2.2⟩)

end Cert.Kernel.Hand

end
-- ==== Proof.KI.Runs.lean ====
/-
  The kernel body at one grid point, in each of its three control cases.

  A point (i, j) of the 8 × 16 grid handles row tile i (1024 rows) against column tile j (512 rows of the same
  array). The body keeps two 1024 × 1 accumulators between points: the running maximum of the masked distances
  (same-label entries) and the running minimum (other-label entries). At j = 0 it first resets them to 0 and +∞;
  at every j it folds the tile's row maxima and minima into them; at j = 15 it also writes
  max(accMax - accMin + margin, 0) into the output block. So there are three cases: j = 0 (reset, then
  accumulate), 0 < j < 15 (accumulate), j = 15 (accumulate, then emit). In each the accumulators end at the
  payload terms below, the inputs' buffers are left as found, and the output's buffer is untouched (first two
  cases) or holds the emitted block (last case).
-/
import proofs.«175456_j39599598469579_1_alg».proof.Proof.Gen.KernelIdeal.Launch
import proofs.«175456_j39599598469579_1_alg».proof.Proof.Gen.KernelIdeal.Skeleton
import proofs.«175456_j39599598469579_1_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a whole-buffer access. -/
theorem hz : (![0, 0] : Fin 2 → Nat) = fun _ => 0 := by funext a; fin_cases a <;> rfl

/-- The body's first branch is taken exactly when the column coordinate is 0, -/
abbrev cond1 (i : grid0.Coords) : Prop := (Scalar.cmpi .ne (Scalar.extui (Scalar.cmpi .eq (BitVec.ofNat 32 (i 1).val) 0#32)) 0#32) = 1#1
/-- and its last exactly when the column coordinate is 15. -/
abbrev cond2 (i : grid0.Coords) : Prop := k0_cond2 i = 1#1

/-- In the row-major walk of the grid the column coordinate of point t is t mod 16. -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val % 16 = 15 :=
  (by decide +kernel : ∀ t : Fin grid0.N, cond2 (grid0.coords t) ↔ t.val % 16 = 15)

/-- The tile's contribution folded into the running maximum `s`: max(s, rowmax of the masked distances). -/
abbrev accMax (x0 : Vec F S1024x128 .f32) (x1 : Vec F S512x128 .f32) (l0 : Vec F S1024x1 .i32) (l1 : Vec F S1x512 .i32)
    (s : Vec F S1024x1 .f32) : Vec F S1024x1 .f32 := k0_pay1 (k0_pay8 x0 x1 l0 l1) s
/-- The tile's contribution folded into the running minimum `s`. -/
abbrev accMin (x0 : Vec F S1024x128 .f32) (x1 : Vec F S512x128 .f32) (l0 : Vec F S1024x1 .i32) (l1 : Vec F S1x512 .i32)
    (s : Vec F S1024x1 .f32) : Vec F S1024x1 .f32 := k0_pay2 (k0_pay9 x0 x1 l0 l1) s

set_option maxHeartbeats 1000000 in
/-- Column tile 0: from any accumulator contents, reset then accumulate; the output's buffer is left as found. -/
theorem runA (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : cond1 i) (hc2 : ¬cond2 i) (x0 : Vec F S1024x128 .f32) (x1 : Vec F S512x128 .f32) (l0 : Vec F S1024x1 .i32) (l1 : Vec F S1x512 .i32) (o : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
            ∗ owns (c : Thread nD τ) arg7 fullShare (accMax x0 x1 l0 l1 (k0_pay4 (F := F)))
            ∗ owns (c : Thread nD τ) arg8 fullShare (accMin x0 x1 l0 l1 (k0_pay5 (F := F)))) -∗ K ⟨⟩))
      ⊢ wp frame (wpE (defs₀ (F := F)) Variants.none c none) E (cc0__triplet_kernel i arg2 harg2 arg3 harg3 arg4 harg4 arg5 harg5 arg6 harg6 arg7 harg7 arg8 harg8) K := by
  sl_unfold [cc0__triplet_kernel]
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  · iexists _; isplitr
    swap; · iexact HS1
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]

set_option maxHeartbeats 1000000 in
/-- A middle column tile: accumulate into what the point before left; the output's buffer is left as found. -/
theorem runB (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : ¬cond2 i) (x0 : Vec F S1024x128 .f32) (x1 : Vec F S512x128 .f32) (l0 : Vec F S1024x1 .i32) (l1 : Vec F S1x512 .i32) (o : Vec F S1024x1 .f32)
    (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l0
        ∗ owns (c : Thread nD τ) arg5 fullShare l1 ∗ owns (c : Thread nD τ) arg6 fullShare o
            ∗ owns (c : Thread nD τ) arg7 fullShare (accMax x0 x1 l0 l1 s0)
            ∗ owns (c : Thread nD τ) arg8 fullShare (accMin x0 x1 l0 l1 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  sl_unfold [cc0__triplet_kernel]
  unfold owns
  iintro ⟨⟨%f0, %hf0, H0⟩, ⟨%f1, %hf1, H1⟩, ⟨%f2, %hf2, H2⟩, ⟨%f3, %hf3, H3⟩, ⟨%f4, %hf4, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3; obtain rfl := harg6.eq_unread hf4
  obtain rfl := harg7.eq_unread hs0; obtain rfl := harg8.eq_unread hs1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr
    swap; · iexact HS0
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  · iexists _; isplitr
    swap; · iexact HS1
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]

set_option maxHeartbeats 1000000 in
/-- The last column tile: accumulate, then emit max(accMax - accMin + margin, 0) into the output's buffer,
    whatever it held. -/
theorem runC (c : Dev nD) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .i32) (harg4 : arg4.IsWhole) (arg5 : Memref sig .tc .vmem S1x512 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole)
    (hc1 : ¬cond1 i) (hc2 : cond2 i) (x0 : Vec F S1024x128 .f32) (x1 : Vec F S512x128 .f32) (l0 : Vec F S1024x1 .i32) (l1 : Vec F S1x512 .i32)
    (s0 s1 : Vec F S1024x1 .f32) (E : Set ℕ) (K : PUnit → sProp 𝕄) :
    iprop(owns (c : Thread nD τ) arg2 fullShare x0 ∗ owns (c : Thread nD τ) arg3 fullShare x1 ∗ owns (c : Thread nD τ) arg4 fullShare l0
        ∗ owns (c : Thread nD τ) arg5 fullShare l1 ∗ (∃ d, owns (c : Thread nD τ) arg6 fullShare d)
        ∗ owns (c : Thread nD τ) arg7 fullShare s0 ∗ owns (c : Thread nD τ) arg8 fullShare s1
        ∗ (iprop(owns (c : Thread nD τ) arg2 fullShare x0 ∗ owns (c : Thread nD τ) arg3 fullShare x1 ∗ owns (c : Thread nD τ) arg4 fullShare l0
        ∗ owns (c : Thread nD τ) arg5 fullShare l1
            ∗ owns (c : Thread nD τ) arg6 fullShare (k0_pay3 (accMax x0 x1 l0 l1 s0) (accMin x0 x1 l0 l1 s1))
            ∗ owns (c : Thread nD τ) arg7 fullShare (accMax x0 x1 l0 l1 s0)
            ∗ owns (c : Thread nD τ) arg8 fullShare (accMin x0 x1 l0 l1 s1)) -∗ K ⟨⟩))
      ⊢ wp frame (wpE (defs₀ (F := F)) Variants.none c none) E (cc0__triplet_kernel i arg2 harg2 arg3 harg3 arg4 harg4 arg5 harg5 arg6 harg6 arg7 harg7 arg8 harg8) K := by
  sl_unfold [cc0__triplet_kernel]
  unfold owns
  iintro ⟨⟨%f0, %hf0, H0⟩, ⟨%f1, %hf1, H1⟩, ⟨%f2, %hf2, H2⟩, ⟨%f3, %hf3, H3⟩, ⟨%d4, %f4, -, H4⟩, ⟨%fs0, %hs0, HS0⟩, ⟨%fs1, %hs1, HS1⟩, Hk⟩
  obtain rfl := harg2.eq_unread hf0; obtain rfl := harg3.eq_unread hf1; obtain rfl := harg4.eq_unread hf2
  obtain rfl := harg5.eq_unread hf3
  obtain rfl := harg7.eq_unread hs0; obtain rfl := harg8.eq_unread hs1
  sl_exec (disch := first | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  isplitl [HS0]
  · iexists _; isplitr
    swap; · iexact HS0
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]
  · iexists _; isplitr
    swap; · iexact HS1
    ipureintro
    sl_unfold_words
    rw [View.read_writes_eq_canon _ _ _ (fun y => ⟨_, List.mem_cons_self, View.mem_set_unit_zero hz Facts₀.inb_S1024x1_S1024x1_0_0 y⟩), View.canon_cons_unit_zero hz]
    simp only [View.readAt_eq_ld, harg2.read_unread, harg3.read_unread, harg4.read_unread, harg5.read_unread, harg7.read_unread, harg8.read_unread,
      View.ld_unit_zero (S := S1024x128) hz, View.ld_unit_zero (S := S512x128) hz, View.ld_unit_zero (S := S1024x1) hz, View.ld_unit_zero (S := S1x512) hz,
      View.readCov_unit_zero (S := S1024x1) _ hz]

end Cert.KernelIdeal.Hand

end
-- ==== Proof.KI.Data.lean ====
/-
  The proof data of the one pipeline: what every window's buffer and the two accumulators hold, point by point.

  The region is entered after the two reshapes of the labels (to a column and to a row); `V` is the memory then.
  Window 0 stages row tile i of the embeddings, window 1 column tile j of THE SAME array, windows 2 and 3 the
  matching labels, window 4 the output block of row tile i. Point t = 16 i + j. After point t the accumulators hold
  `S0 t`, `S1 t`: the fold of the tiles j' ≤ j of row tile i from (0, +∞), restarted whenever j = 0. The output
  block written back at j = 15 is max(S0 - S1 + margin, 0). The embeddings are read through two windows, so each
  holds half of the array's share.
-/
import proofs.«175456_j39599598469579_1_alg».proof.Proof.KI.Runs
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory when the region is entered -/

/-- Core `c`'s buffers after the two reshapes of the labels, as a valuation, -/
abbrev V0 (c : Dev nD) : Valuation τ sig (Elt F) := StableHlo.after (List.flatten [hostOps0]) (fun b => m (c, b))
/-- and read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at their literal types: the row tile, the column tile, the row tile's labels
    (a column), the column tile's labels (a row). -/
abbrev qblk (c : Dev nD) (t : Fin cfg0.N) : Vec F S1024x128 .f32 := iblk m c 0 t
abbrev kblk (c : Dev nD) (t : Fin cfg0.N) : Vec F S512x128 .f32 := iblk m c 1 t
abbrev lrow (c : Dev nD) (t : Fin cfg0.N) : Vec F S1024x1 .i32 := iblk m c 2 t
abbrev lcol (c : Dev nD) (t : Fin cfg0.N) : Vec F S1x512 .i32 := iblk m c 3 t

/-! ## The accumulators after each point -/

/-- The running maximum after point `n`: this tile folded into what the point before left, or into 0 at the first
    column tile of a row tile. -/
def S0 (c : Dev nD) : (n : ℕ) → n < cfg0.N → Vec F S1024x1 .f32
  | 0, hn => accMax (qblk m c ⟨0, hn⟩) (kblk m c ⟨0, hn⟩) (lrow m c ⟨0, hn⟩) (lcol m c ⟨0, hn⟩) (k0_pay4 (F := F))
  | n + 1, hn => accMax (qblk m c ⟨n + 1, hn⟩) (kblk m c ⟨n + 1, hn⟩) (lrow m c ⟨n + 1, hn⟩) (lcol m c ⟨n + 1, hn⟩)
      (if (n + 1) % 16 = 0 then (k0_pay4 (F := F)) else S0 c n (Nat.lt_of_succ_lt hn))

/-- The running minimum after point `n`, from +∞ likewise. -/
def S1 (c : Dev nD) : (n : ℕ) → n < cfg0.N → Vec F S1024x1 .f32
  | 0, hn => accMin (qblk m c ⟨0, hn⟩) (kblk m c ⟨0, hn⟩) (lrow m c ⟨0, hn⟩) (lcol m c ⟨0, hn⟩) (k0_pay5 (F := F))
  | n + 1, hn => accMin (qblk m c ⟨n + 1, hn⟩) (kblk m c ⟨n + 1, hn⟩) (lrow m c ⟨n + 1, hn⟩) (lcol m c ⟨n + 1, hn⟩)
      (if (n + 1) % 16 = 0 then (k0_pay5 (F := F)) else S1 c n (Nat.lt_of_succ_lt hn))

/-- At a first column tile the fold restarts: -/
theorem S0_reset (c : Dev nD) (t : Fin cfg0.N) (h : t.val % 16 = 0) :
    S0 m c t.val t.isLt = accMax (qblk m c t) (kblk m c t) (lrow m c t) (lcol m c t) (k0_pay4 (F := F)) := by
  obtain ⟨n, hn⟩ := t
  cases n with
  | zero => rfl
  | succ n => show accMax _ _ _ _ (if (n + 1) % 16 = 0 then _ else _) = _; rw [if_pos h]
theorem S1_reset (c : Dev nD) (t : Fin cfg0.N) (h : t.val % 16 = 0) :
    S1 m c t.val t.isLt = accMin (qblk m c t) (kblk m c t) (lrow m c t) (lcol m c t) (k0_pay5 (F := F)) := by
  obtain ⟨n, hn⟩ := t
  cases n with
  | zero => rfl
  | succ n => show accMin _ _ _ _ (if (n + 1) % 16 = 0 then _ else _) = _; rw [if_pos h]

/-- elsewhere it continues from the point before. -/
theorem S0_step (c : Dev nD) (t : Fin cfg0.N) (h : ¬t.val % 16 = 0) :
    S0 m c t.val t.isLt = accMax (qblk m c t) (kblk m c t) (lrow m c t) (lcol m c t)
      (S0 m c (t.val - 1) (Nat.lt_of_le_of_lt (Nat.sub_le _ _) t.isLt)) := by
  obtain ⟨n, hn⟩ := t
  cases n with
  | zero => exact absurd (Nat.zero_mod _) h
  | succ n => show accMax _ _ _ _ (if (n + 1) % 16 = 0 then _ else _) = _; rw [if_neg h]; rfl
theorem S1_step (c : Dev nD) (t : Fin cfg0.N) (h : ¬t.val % 16 = 0) :
    S1 m c t.val t.isLt = accMin (qblk m c t) (kblk m c t) (lrow m c t) (lcol m c t)
      (S1 m c (t.val - 1) (Nat.lt_of_le_of_lt (Nat.sub_le _ _) t.isLt)) := by
  obtain ⟨n, hn⟩ := t
  cases n with
  | zero => exact absurd (Nat.zero_mod _) h
  | succ n => show accMin _ _ _ _ (if (n + 1) % 16 = 0 then _ else _) = _; rw [if_neg h]; rfl

/-! ## The invariant between points: the two accumulators -/

/-- The accumulators as memrefs: whole scoped buffers of the kernel's own. -/
abbrev scM0 : Memref sig .tc .vmem S1024x1 .f32 := Memref.whole cc0_scratch0
abbrev scM1 : Memref sig .tc .vmem S1024x1 .f32 := Memref.whole cc0_scratch1

/-- Before the first point they hold anything; after point `n` they hold `S0 n`, `S1 n`. -/
def PhiS (c : Dev nD) : (n : ℕ) → n ≤ cfg0.N → sProp 𝕄
  | 0, _ => iprop((∃ d, owns (c : Thread nD τ) scM0 fullShare d) ∗ (∃ d, owns (c : Thread nD τ) scM1 fullShare d))
  | n + 1, hn => iprop(owns (c : Thread nD τ) scM0 fullShare (S0 m c n hn) ∗ owns (c : Thread nD τ) scM1 fullShare (S1 m c n hn))

theorem PhiS_zero (c : Dev nD) (n : ℕ) (h : n ≤ cfg0.N) (hz : n = 0) :
    PhiS m c n h = iprop((∃ d, owns (c : Thread nD τ) scM0 fullShare d) ∗ (∃ d, owns (c : Thread nD τ) scM1 fullShare d)) := by
  subst hz; rfl
theorem PhiS_succ (c : Dev nD) (n : ℕ) (hn : n < cfg0.N) :
    PhiS m c (n + 1) hn = iprop(owns (c : Thread nD τ) scM0 fullShare (S0 m c n hn) ∗ owns (c : Thread nD τ) scM1 fullShare (S1 m c n hn)) := rfl
theorem PhiS_pos (c : Dev nD) (n : ℕ) (h : n ≤ cfg0.N) (hz : n ≠ 0) :
    PhiS m c n h = iprop(owns (c : Thread nD τ) scM0 fullShare (S0 m c (n - 1) (by omega)) ∗ owns (c : Thread nD τ) scM1 fullShare (S1 m c (n - 1) (by omega))) := by
  cases n with
  | zero => exact absurd rfl hz
  | succ n => rfl

/-! ## The proof data -/

/-- The arrays as the region finds them; after the body each input's buffer at its block, the output's at the emitted
    block; the accumulators in the invariant; nothing owed; the embeddings' share halved between the two windows that
    read them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay3 (S0 m c t.val t.isLt) (S1 m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = k0_pay3 (S0 m c t.val t.isLt) (S1 m c t.val t.isLt) := by dsimp only [dats]

/-- Each input's current buffer holds its block at every point, fetched there or not (unfetched, the block index has
    not moved and the body left the block in place). -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- The output is stored only at the last column tile; elsewhere its window is idle and not written back. -/
theorem idleAt0_4 : ∀ t : Fin cfg0.N, ¬cond2 (grid0.coords t) → cfg0.idle 4 (grid0.coords t) = true := by decide +kernel
theorem noFlush0_4 : ∀ t : Fin cfg0.N, ¬cond2 (grid0.coords t) → (cfg0.win 4).flush t = false := by decide +kernel
theorem liveAt0_4 : ∀ t : Fin cfg0.N, cond2 (grid0.coords t) → cfg0.idle 4 (grid0.coords t) = false := by decide +kernel

/-! ## The body obligation -/

/-- Each window's current staging memref at point `t`, as the pipeline passes it to the body, and its wholeness. -/
abbrev ms0 (t : Fin cfg0.N) : Memref sig .tc .vmem S1024x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x512 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point. Each input's buffer holds its block; t mod 16 says which of the three cases the point
    is in. At a first column tile the accumulators are taken at whatever they hold (anything before the first
    point, the previous row tile's totals afterwards) and end at the restarted fold; elsewhere they are taken at
    the fold up to the point before and end at the fold up to this one. The output's buffer is handed back as
    found except at a last column tile, where it ends at the emitted block. Nothing is owed throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 128 := lt_of_lt_of_eq t.isLt (show cfg0.N = 128 from N_0)
  rw [show (dats m 0 c).leavesExact 0 t = owns (c : Thread nD τ) (ms0 t) fullShare ((dats m 0 c).after 0 t) from by
    unfold Dat.leavesExact; rw [liveAt0_0 t], after0_0]
  rw [show (dats m 0 c).leavesExact 1 t = owns (c : Thread nD τ) (ms1 t) fullShare ((dats m 0 c).after 1 t) from by
    unfold Dat.leavesExact; rw [liveAt0_1 t], after0_1]
  rw [show (dats m 0 c).leavesExact 2 t = owns (c : Thread nD τ) (ms2 t) fullShare ((dats m 0 c).after 2 t) from by
    unfold Dat.leavesExact; rw [liveAt0_2 t], after0_2]
  rw [show (dats m 0 c).leavesExact 3 t = owns (c : Thread nD τ) (ms3 t) fullShare ((dats m 0 c).after 3 t) from by
    unfold Dat.leavesExact; rw [liveAt0_3 t], after0_3]
  by_cases h0 : t.val % 16 = 0
  · have hc1 : cond1 (grid0.coords t) := (hcond1 t).mpr h0
    have hc2 : ¬cond2 (grid0.coords t) := fun h => by have := (hcond2 t).mp h; omega
    rw [Dat.leavesExact_idle (dats m 0 c) 4 t (idleAt0_4 t hc2) (noFlush0_4 t hc2)]
    rw [S0_reset m c t h0, S1_reset m c t h0]
    by_cases hz : t.val = 0
    · rw [PhiS_castSucc m c t, PhiS_zero m c _ _ hz]
      iintro ⟨⟨HS0, HS1⟩, Ho, ⟨%d0, H0⟩, ⟨%d1, H1⟩, ⟨%d2, H2⟩, ⟨%d3, H3⟩, ⟨%d4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4
    · rw [PhiS_castSucc m c t, PhiS_pos m c _ _ hz]
      iintro ⟨⟨HS0, HS1⟩, Ho, ⟨%d0, H0⟩, ⟨%d1, H1⟩, ⟨%d2, H2⟩, ⟨%d3, H3⟩, ⟨%d4, H4⟩⟩
      iapply (runA c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) ((dats m 0 c).before 4 t d4) Set.univ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4
  · have hc1 : ¬cond1 (grid0.coords t) := fun h => h0 ((hcond1 t).mp h)
    have hz : t.val ≠ 0 := fun h => h0 (by rw [h])
    rw [S0_step m c t h0, S1_step m c t h0]
    rw [PhiS_castSucc m c t, PhiS_pos m c _ _ hz]
    by_cases h1 : t.val % 16 = 15
    · have hc2 : cond2 (grid0.coords t) := (hcond2 t).mpr h1
      rw [show (dats m 0 c).leavesExact 4 t = owns (c : Thread nD τ) (ms4 t) fullShare ((dats m 0 c).after 4 t) from by
        unfold Dat.leavesExact; rw [liveAt0_4 t hc2], after0_4]
      rw [S0_step m c t h0, S1_step m c t h0]
      iintro ⟨⟨HS0, HS1⟩, Ho, ⟨%d0, H0⟩, ⟨%d1, H1⟩, ⟨%d2, H2⟩, ⟨%d3, H3⟩, ⟨%d4, H4⟩⟩
      iapply (runC c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) (S0 m c (t.val - 1) (Nat.lt_of_le_of_lt (Nat.sub_le _ _) t.isLt)) (S1 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexact H4
    · have hc2 : ¬cond2 (grid0.coords t) := fun h => h1 ((hcond2 t).mp h)
      rw [Dat.leavesExact_idle (dats m 0 c) 4 t (idleAt0_4 t hc2) (noFlush0_4 t hc2)]
      iintro ⟨⟨HS0, HS1⟩, Ho, ⟨%d0, H0⟩, ⟨%d1, H1⟩, ⟨%d2, H2⟩, ⟨%d3, H3⟩, ⟨%d4, H4⟩⟩
      iapply (runB c (grid0.coords t) (ms0 t) (hs0 t) (ms1 t) (hs1 t) (ms2 t) (hs2 t) (ms3 t) (hs3 t) (ms4 t) (hs4 t) scM0 (Memref.isWhole_whole _) scM1 (Memref.isWhole_whole _) hc1 hc2 (qblk m c t) (kblk m c t) (lrow m c t) (lcol m c t) ((dats m 0 c).before 4 t d4) (S0 m c (t.val - 1) (Nat.lt_of_le_of_lt (Nat.sub_le _ _) t.isLt)) (S1 m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1]
      · isplitl [HS0]; · iexact HS0
        iexact HS1
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region of the kernel's own buffers is the invariant before the first point, -/
theorem hin (c : Dev nD) : Pipeline.scopedRest (Ix := Unit) (Name := ℕ) (U := UR sig nD τ) (Lvl := ℕ) (Val := Elt F) spec0 c ⊢ (dats m 0 c).Φ 0 := by
  rw [show (dats m 0 c).Φ 0 = PhiS m c 0 (Nat.zero_le _) from rfl, PhiS_zero m c 0 _ rfl, scopedRest0_eq]
  simp only [scM0, scM1, owns_whole]
  exact Idealize.SL.BI.Entails.refl _

/-- and the invariant after the last point gives them back. -/
theorem hout (c : Dev nD) : (dats m 0 c).Φ (Fin.last cfg0.N) ⊢ Pipeline.scopedRest (Ix := Unit) (Name := ℕ) (U := UR sig nD τ) (Lvl := ℕ) (Val := Elt F) spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 128 := N_0; omega), scopedRest0_eq]
  simp only [scM0, scM1, owns_whole]
  iintro ⟨H0, H1⟩
  isplitl [H0]
  · iexists _; iexact H0
  · iexists _; iexact H1

end Cert.KernelIdeal.Hand

end
-- ==== Proof.KI.Launch.lean ====
/-
  The launch: @main is two reshapes of the labels, the kernel region, then the mean of the region's result
  (a constant 0, the sum over both axes, a constant 8192, the quotient).

  The region reads the embeddings through TWO windows, so the array's one buffer is dealt to them by halves of
  its share when the region is entered, and each window ends holding the same, unwritten, contents. The lines after
  the region read only the region's result array and write four buffers of their own, so they run holding that array
  and those four. The run ends with the result at the mean computed from what the region wrote back, and both
  arguments as they were.
-/
import proofs.«175456_j39599598469579_1_alg».proof.Proof.KI.Data
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main reduces to the region continued by the four later lines, entered at the memory after the two reshapes. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshapes write neither argument. -/
theorem V_main_arg0 (c : Dev nD) : V m c main_arg0 = m ((c : Thread nD τ).loc main_arg0) :=
  StableHlo.after_of_forall_not_mem (b := Proc.devRef .tc main_arg0) _ _ (by
    intro op hop
    simp only [List.flatten_cons, List.flatten_nil, List.append_nil, hostOps0, List.mem_cons, List.mem_nil_iff, or_false] at hop
    rcases hop with rfl | rfl <;> simp only [StableHlo.reshape_writes, Finset.mem_singleton] <;> exact StableHlo.devRef_ne_of_ne (by decide))
theorem V_main_arg1 (c : Dev nD) : V m c main_arg1 = m ((c : Thread nD τ).loc main_arg1) :=
  StableHlo.after_of_forall_not_mem (b := Proc.devRef .tc main_arg1) _ _ (by
    intro op hop
    simp only [List.flatten_cons, List.flatten_nil, List.append_nil, hostOps0, List.mem_cons, List.mem_nil_iff, or_false] at hop
    rcases hop with rfl | rfl <;> simp only [StableHlo.reshape_writes, Finset.mem_singleton] <;> exact StableHlo.devRef_ne_of_ne (by decide))

/-! ## What the lines after the region compute -/

/-- The losses the region wrote back, one per row: the result array after every write-back. -/
abbrev lossArr (c : Dev nD) : Buf (Elt F) ((c : Thread nD τ).loc main_v2) := (dats m 0 c).arrAt 4 cfg0.N

/-- The memory the later lines start from: the region's result array at the losses, everything else as entered. -/
def Wexit (c : Dev nD) : Valuation τ sig (Elt F) :=
  Function.update (V0 m c) (Proc.devRef .tc main_v2) (lossArr m c)

/-- and the memory after them. -/
def Wtail (c : Dev nD) : Valuation τ sig (Elt F) := StableHlo.after hostOps1 (Wexit m c)

/-- The program's result: the mean of the losses as the later lines compute it. -/
def result (c : Dev nD) : Buf (Elt F) ((c : Thread nD τ).loc main_v4) := Wtail m c (Proc.devRef .tc main_v4)

end Cert.KernelIdeal.Hand

end
-- ==== Proof.KI.Run.lean ====
/-
  The run of @main: the launch of the region with the embeddings' buffer dealt to its two windows, the later lines
  run from the region's exit, and the final memory read back.
-/
import proofs.«175456_j39599598469579_1_alg».proof.Proof.KI.Launch
import Idealize.ShloMosaic.Lib.Pipeline.FrameSuffix
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The shares: the embeddings' buffer by halves, every other array whole -/

theorem share0 (c : Dev nD) : (dats m 0 c).share 0 = fullShare.left := by unfold Dat.share; rfl
theorem share1 (c : Dev nD) : (dats m 0 c).share 1 = fullShare.right := by unfold Dat.share; rfl
theorem share2 (c : Dev nD) : (dats m 0 c).share 2 = fullShare := by unfold Dat.share; rfl
theorem share3 (c : Dev nD) : (dats m 0 c).share 3 = fullShare := by unfold Dat.share; rfl
theorem share4 (c : Dev nD) : (dats m 0 c).share 4 = fullShare := by unfold Dat.share; rfl

/-- The windows' arrays, at any contents, one by one: each a whole buffer at its window's share. -/
theorem arrays_eq (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v0) ↦{fullShare} G 2) ∗ (((c : Thread nD τ).loc main_v1) ↦{fullShare} G 3)
          ∗ (((c : Thread nD τ).loc main_v2) ↦{fullShare} G 4)) := by
  unfold Dat.arrays
  rw [bigSep_W0]
  simp only [(arr_whole0 0).set_eq_univ, (arr_whole0 2).set_eq_univ, (arr_whole0 3).set_eq_univ,
    (arr_whole0 4).set_eq_univ, share0, share1, share2, share3, share4]

/-- The four distinct buffers behind the five windows' arrays. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v0) ↦{fullShare} W main_v0)
          ∗ (((c : Thread nD τ).loc main_v1) ↦{fullShare} W main_v1) ∗ (((c : Thread nD τ).loc main_v2) ↦{fullShare} W main_v2)) := by
  unfold Pipeline.arrBufs
  exact bigSep_eq_bigSepL_of_eq [main_arg0, main_v0, main_v1, main_v2] (by decide) (by decide) _

/-- Entering the region: the embeddings' buffer is dealt by halves to the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq, arrays_eq]
  iintro ⟨Ha, H0, H1, H2⟩
  ihave Hs := (pointsTo_share (PosShare.mem_left_op_right fullShare)).1 $$ Ha
  icases Hs with ⟨HaL, HaR⟩
  isplitl [HaL]; · iexact HaL
  isplitl [HaR]; · iexact HaR
  isplitl [H0]; · iexact H0
  isplitl [H1]; · iexact H1
  iexact H2

/-! ## The lines after the region -/

/-- The buffers the later lines touch: the region's result array and their own four. -/
def tailSet : Finset (DevRef τ sig) :=
  ([main_v2, main_cst, main_v3, main_cst_0, main_v4].map (Proc.devRef (τ := τ) (sig := sig) .tc)).toFinset

/-- Those five held at a valuation, one by one. -/
theorem held_tailSet (c : Dev nD) (W : Valuation τ sig (Elt F)) :
    (StableHlo.held (c : Thread nD τ) tailSet W : sProp 𝕄)
      = iprop((((c : Thread nD τ).loc main_v2) ↦{fullShare} W (Proc.devRef .tc main_v2))
          ∗ (((c : Thread nD τ).loc main_cst) ↦{fullShare} W (Proc.devRef .tc main_cst))
          ∗ (((c : Thread nD τ).loc main_v3) ↦{fullShare} W (Proc.devRef .tc main_v3))
          ∗ (((c : Thread nD τ).loc main_cst_0) ↦{fullShare} W (Proc.devRef .tc main_cst_0))
          ∗ (((c : Thread nD τ).loc main_v4) ↦{fullShare} W (Proc.devRef .tc main_v4))) := by
  unfold StableHlo.held tailSet
  rw [bigSep_eq_bigSepL _ (by decide)]
  rfl

theorem hostOps1_tailSet : ∀ op ∈ (hostOps1 : List (HloOp τ sig (Elt F))), op.bufs ⊆ tailSet := by
  intro op hop
  simp only [hostOps1, List.mem_cons, List.mem_nil_iff, or_false] at hop
  rcases hop with rfl | rfl | rfl | rfl
  · show ({(Proc.devRef .tc main_cst : DevRef τ sig)} : Finset (DevRef τ sig)) ⊆ tailSet
    unfold tailSet; decide
  · show ({(Proc.devRef .tc main_v2 : DevRef τ sig), Proc.devRef .tc main_cst, Proc.devRef .tc main_v3} : Finset (DevRef τ sig)) ⊆ tailSet
    unfold tailSet; decide
  · show ({(Proc.devRef .tc main_cst_0 : DevRef τ sig)} : Finset (DevRef τ sig)) ⊆ tailSet
    unfold tailSet; decide
  · show ({(Proc.devRef .tc main_v3 : DevRef τ sig), Proc.devRef .tc main_cst_0, Proc.devRef .tc main_v4} : Finset (DevRef τ sig)) ⊆ tailSet
    unfold tailSet; decide

theorem hostOps1_nofresh : ∀ op ∈ (hostOps1 : List (HloOp τ sig (Elt F))), op.fresh = ∅ :=
  List.forall_iff_forall_mem.mp hostOps1_fresh

/-- The later lines write neither the region's result array -/
theorem Wtail_main_v2 (c : Dev nD) : Wtail m c (Proc.devRef .tc main_v2) = lossArr m c := by
  unfold Wtail
  rw [StableHlo.after_of_forall_not_mem (b := Proc.devRef .tc main_v2) _ _ (by
    intro op hop
    simp only [hostOps1, List.mem_cons, List.mem_nil_iff, or_false] at hop
    rcases hop with rfl | rfl | rfl | rfl <;> simp only [StableHlo.nullary_writes, StableHlo.binary_writes, Finset.mem_singleton] <;> exact StableHlo.devRef_ne_of_ne (by decide))]
  unfold Wexit
  exact Function.update_self _ _ _

/-- nor the labels. -/
theorem Wtail_main_arg1 (c : Dev nD) : Wtail m c (Proc.devRef .tc main_arg1) = m ((c : Thread nD τ).loc main_arg1) := by
  unfold Wtail
  rw [StableHlo.after_of_forall_not_mem (b := Proc.devRef .tc main_arg1) _ _ (by
    intro op hop
    simp only [hostOps1, List.mem_cons, List.mem_nil_iff, or_false] at hop
    rcases hop with rfl | rfl | rfl | rfl <;> simp only [StableHlo.nullary_writes, StableHlo.binary_writes, Finset.mem_singleton] <;> exact StableHlo.devRef_ne_of_ne (by decide))]
  unfold Wexit
  rw [Function.update_of_ne (StableHlo.devRef_ne_of_ne (by decide))]
  exact V_main_arg1 m c

theorem Wexit_v2 (c : Dev nD) : Wexit m c (Proc.devRef .tc main_v2) = (dats m 0 c).arrAt 4 cfg0.N := by
  unfold Wexit; exact Function.update_self _ _ _
theorem Wexit_ne (c : Dev nD) (b : Ref sig .tc) (h : b ≠ main_v2) : Wexit m c (Proc.devRef .tc b) = V m c b := by
  unfold Wexit; exact Function.update_of_ne (StableHlo.devRef_ne_of_ne h) _ _

/-- What bypasses the region, as the later lines leave it: the labels and the lines' own four buffers. -/
def Ztail (c : Dev nD) : sProp 𝕄 :=
  iprop((((c : Thread nD τ).loc main_arg1) ↦{fullShare} V m c main_arg1)
    ∗ (((c : Thread nD τ).loc main_cst) ↦{fullShare} Wtail m c (Proc.devRef .tc main_cst))
    ∗ (((c : Thread nD τ).loc main_v3) ↦{fullShare} Wtail m c (Proc.devRef .tc main_v3))
    ∗ (((c : Thread nD τ).loc main_cst_0) ↦{fullShare} Wtail m c (Proc.devRef .tc main_cst_0))
    ∗ (((c : Thread nD τ).loc main_v4) ↦{fullShare} Wtail m c (Proc.devRef .tc main_v4)))

-- a rule stated for any thread, applied at the TensorCore thread, unifies only when unification may unfold plain
-- definitions in a metavariable's type
set_option backward.isDefEq.respectTransparency.types false in
/-- From the region's exit the four later lines run, holding the result array (read) and their own buffers (written),
    and hand the arrays back as they were. -/
theorem htail (c : Dev nD) (Q' : PUnit → sProp 𝕄) :
    iprop((iprop((dats m 0 c).arrays ((dats m 0 c).arrAt · cfg0.N) ∗ Ztail m c) -∗ Q' ⟨⟩)
        ∗ boundary (c : Thread nD τ) ∗ (dats m 0 c).arrays ((dats m 0 c).arrAt · cfg0.N)
        ∗ Pipeline.unscopedRest (Ix := Unit) (Name := ℕ) (U := UR sig nD τ) (Lvl := ℕ) spec0 c (V m c))
      ⊢ wp frame (wpE (Pipeline.defs (fun q => (cfgs q).toPCfg (Val := Elt F)) defs₀) (Variants.lift Variants.none) (c : Thread nD τ) none) Set.univ
          (Pipeline.chain [StableHlo.seq hostOps1]) Q' := by
  rw [arrays_eq, unscopedRest0_eq]
  iintro ⟨Hk, Hb, ⟨HaL, HaR, H0, H1, H2⟩, ⟨Harg1, Hcst, Hv3, Hcst0, Hv4⟩⟩
  rw [show (Pipeline.chain [StableHlo.seq (hostOps1 (F := F))] : Prog (TpuEff nD τ sig (Elt F) _ .tc) PUnit)
      = (StableHlo.seq hostOps1 >>= fun _ => pure ⟨⟩) from rfl]
  iapply (StableHlo.wp_seq (Variants.lift Variants.none) none Set.univ c tailSet (fun _ => pure ⟨⟩) hostOps1 hostOps1_tailSet hostOps1_nofresh (Wexit m c)) $$ [Hb H2 Hcst Hv3 Hcst0 Hv4]
  · isplitl [Hb]; · iexact Hb
    rw [held_tailSet, Wexit_v2, Wexit_ne m c main_cst (by decide), Wexit_ne m c main_v3 (by decide), Wexit_ne m c main_cst_0 (by decide), Wexit_ne m c main_v4 (by decide)]
    isplitl [H2]; · iexact H2
    isplitl [Hcst]; · iexact Hcst
    isplitl [Hv3]; · iexact Hv3
    isplitl [Hcst0]; · iexact Hcst0
    iexact Hv4
  iintro ⟨Hb, Hh⟩
  ihave Hh' := (show (StableHlo.held (c : Thread nD τ) tailSet (StableHlo.after hostOps1 (Wexit m c)) : sProp 𝕄) ⊢ _ from Entails.of_eq (held_tailSet c (Wtail m c))) $$ Hh
  icases Hh' with ⟨H2, Hcst, Hv3, Hcst0, Hv4⟩
  rw [wp_pure]
  imodintro
  iapply Hk
  isplitl [HaL HaR H0 H1 H2]
  · isplitl [HaL]; · iexact HaL
    isplitl [HaR]; · iexact HaR
    isplitl [H0]; · iexact H0
    isplitl [H1]; · iexact H1
    rw [show (dats m 0 c).arrAt 4 cfg0.N = Wtail m c (Proc.devRef .tc main_v2) from (Wtail_main_v2 m c).symm]
    iexact H2
  unfold Ztail
  isplitl [Harg1]; · iexact Harg1
  isplitl [Hcst]; · iexact Hcst
  isplitl [Hv3]; · iexact Hv3
  isplitl [Hcst0]; · iexact Hcst0
  iexact Hv4

/-! ## The run -/

/-- What the run ends in: the result at the mean the later lines compute, both arguments as they were. -/
def QFinal : PUnit × MemSt nD τ sig (Elt F) → Prop := fun r => ∀ c : Dev nD,
  r.2.mem ((c.tc : Thread nD τ).loc main_v4) = result m c
  ∧ r.2.mem ((c.tc : Thread nD τ).loc main_arg0) = m ((c.tc : Thread nD τ).loc main_arg0)
  ∧ r.2.mem ((c.tc : Thread nD τ).loc main_arg1) = m ((c.tc : Thread nD τ).loc main_arg1)

-- the launch theorem's implicit arguments are found by unifying its conclusion with this one, which takes unfolding
-- plain definitions in a metavariable's type
set_option backward.isDefEq.respectTransparency.types false in
/-- At the compiled mesh, for any float values, from any memory with zero counters: every weakly fair execution of @main
    on the TensorCores terminates, nothing faulting, with the result at `result` and both arguments unchanged. -/
theorem run_main : θ_run defs (onTc (τ := τ) (main (F := F))) (s₀ m ρ) (QFinal m) :=
  Pipeline.θ_run_region_noSem_pf_tail (fun q => (cfgs q).toPCfg (Val := Elt F)) (fun q => (cfgs q).toPCfg_adm) (dats m) () cellOf_inj (0 : Fin 1)
    winFacts₀0 (Pipeline.PreFacts.none _) emb₁ defs₀ Variants.none m ρ main (fun _ => Pipeline.chain [StableHlo.seq hostOps1])
    (hbody := fun c => (body_obligation m c).loose) (hne := block_pos0) (harr := arr_whole0) (hstage := stage_whole0) (howed := fun _ _ => rfl)
    (u₀ := initOf (Pipeline.cells cfgs cellOf_inj) (Pipeline.launchToks cfgs cellOf_inj)) (hu₀ := .rfl)
    (V := V m) (hmain := hmain m Variants.none) (hsplit := hsplit m) (hpf := fun _ k => k.elim0)
    (X := fun _ => iprop(emp)) (Y := fun _ => iprop(emp))
    (Z := fun c => Pipeline.unscopedRest (Ix := Unit) (Name := ℕ) (U := UR sig nD τ) (Lvl := ℕ) spec0 c (V m c)) (Z' := Ztail m)
    (hX := fun c => by
      rw [Pipeline.unscopedRestP_none]
      iintro H; isplitr; · iempintro
      iexact H)
    (hin := fun c => by
      iintro ⟨-, -, HR⟩
      iapply (hin m c); iexact HR)
    (hout := fun c => (hout m c).trans (by
      iintro H; isplitr; · iempintro
      iexact H))
    (htail := htail m)
    (QY := fun c s => s.mem ((c.tc : Thread nD τ).loc main_v4) = result m c
      ∧ s.mem ((c.tc : Thread nD τ).loc main_arg1) = m ((c.tc : Thread nD τ).loc main_arg1))
    (hY := fun c s' => by
      unfold Ztail
      iintro ⟨-, ⟨Harg1, -, -, -, Hv4⟩, HSI⟩
      icombine HSI Harg1 gives %h1
      icombine HSI Hv4 gives %h4
      imodintro
      isplitr
      · ipureintro; exact ⟨Buf.eq_of_forall_mem_univ h4, (Buf.eq_of_forall_mem_univ h1).trans (V_main_arg1 m c)⟩
      iexact HSI)
    (hQ := fun s h c => ⟨(h c).2.2.1,
      ((h c).1 0).trans (((dats m 0 c).arrAt_in 0 rfl _).trans ((A_eq m c 0).trans (V_main_arg0 m c))), (h c).2.2.2⟩)

end Cert.KernelIdeal.Hand

end
-- ==== Proof.Spec.lean ====
/-
  The specification both programs are compared with: the batch-hard triplet loss of 8192 embeddings of
  dimension 128, as one closed term over the extended reals.

  For rows i, j the squared distance is  ‖xᵢ‖² + ‖xⱼ‖² - 2·⟨xᵢ, xⱼ⟩, clamped below at 0, and the distance its
  square root. With s(i, j) the predicate "the labels of i and j are equal", the hardest positive of row i is the
  maximum over j of (s(i, j) ? dist(i, j) : 0), the hardest negative the minimum over j of
  (s(i, j) ? +∞ : dist(i, j)), the row's loss max(hardPos - hardNeg + margin, 0), and the result the sum of the
  8192 losses divided by 8192. Every float literal is kept as the pattern both programs print.
-/
import Idealize.ShloMosaic.PureOps.Ideal
import Mathlib.Order.Fin.Basic

noncomputable section

namespace Cert.Spec

open Idealize.ShloMosaic

/-- The literals, as the patterns the programs print: 0, 2, +∞, -∞, the margin 0.3 (as f32), 8192. -/
abbrev c0 : EReal := Ideal.ofBits .f32 0x00000000#32
abbrev c2 : EReal := Ideal.ofBits .f32 0x40000000#32
abbrev cInf : EReal := Ideal.ofBits .f32 0x7F800000#32
abbrev cNegInf : EReal := Ideal.ofBits .f32 0xFF800000#32
abbrev cMargin : EReal := Ideal.ofBits .f32 0x3E99999A#32
abbrev cN : EReal := Ideal.ofBits .f32 0x46000000#32

variable (x : Fin 8192 → Fin 128 → EReal) (lab : Fin 8192 → BitVec 32)

/-- ‖xᵢ‖²: the sum of the squares of row i. -/
def sq (i : Fin 8192) : EReal := ∑ k : Fin 128, x i k * x i k

/-- ⟨xᵢ, xⱼ⟩. -/
def dot (i j : Fin 8192) : EReal := ∑ k : Fin 128, x i k * x j k

/-- The Euclidean distance of rows i and j through the clamped expansion of the square. -/
def dist (i j : Fin 8192) : EReal := Ideal.sqrt (max (sq x i + sq x j - c2 * dot x i j) c0)

/-- Same-label entries keep their distance, the others are 0. -/
def posMasked (i j : Fin 8192) : EReal := if lab i = lab j then dist x i j else c0

/-- Same-label entries are +∞, the others keep their distance. -/
def negMasked (i j : Fin 8192) : EReal := if lab i = lab j then cInf else dist x i j

/-- The hardest positive of row i: the maximum over all columns, from -∞. -/
def hardPos (i : Fin 8192) : EReal := (Finset.univ : Finset (Fin 8192)).fold max cNegInf (posMasked x lab i)

/-- The hardest negative of row i: the minimum over all columns, from +∞. -/
def hardNeg (i : Fin 8192) : EReal := (Finset.univ : Finset (Fin 8192)).fold min cInf (negMasked x lab i)

/-- The loss of row i. -/
def loss (i : Fin 8192) : EReal := max (hardPos x lab i - hardNeg x lab i + cMargin) c0

/-- The mean of the losses: their sum from 0, divided by 8192. -/
def meanLoss : EReal := Ideal.div (c0 + ∑ i : Fin 8192, loss x lab i) cN

end Cert.Spec

end
-- ==== Proof.KV.Tile.lean ====
/-
  One grid point's arithmetic read at a row, at the extended reals: for row `r` of the row tile and column `cc` of the
  column tile the distance is sqrt(max(‖q_r‖² + ‖k_cc‖² - 2⟨q_r, k_cc⟩, 0)); the running maximum takes the maximum over the
  tile's 512 columns of the same-label distances (0 elsewhere), the running minimum the minimum of the other-label
  distances (+∞ elsewhere); the emitted block is max(accMax - accMin + margin, 0).
-/
import proofs.«175456_j39599598469579_1_alg».proof.Proof.KI.Runs
import proofs.«175456_j39599598469579_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Hand Cert.Spec
open Idealize.ShloMosaic Idealize.ShloMosaic.ValueIdx

/-- The distance of row `r` of the row tile and row `cc` of the column tile. -/
def tileDist (x0 : Vec Ideal S1024x128 .f32) (x1 : Vec Ideal S512x128 .f32) (r : Fin 1024) (cc : Fin 512) : EReal :=
  Ideal.sqrt (max ((∑ k : Fin 128, x0 (ix2 r k) * x0 (ix2 r k)) + (∑ k : Fin 128, x1 (ix2 cc k) * x1 (ix2 cc k))
    - c2 * (∑ k : Fin 128, x0 (ix2 r k) * x1 (ix2 cc k))) c0)

/-- Same-label entries keep their distance, the others are 0; -/
def tilePos (x0 : Vec Ideal S1024x128 .f32) (x1 : Vec Ideal S512x128 .f32) (l0 : Vec Ideal S1024x1 .i32) (l1 : Vec Ideal S1x512 .i32)
    (r : Fin 1024) (cc : Fin 512) : EReal :=
  if l0 (ix2 r 0) = l1 (ix2 0 cc) then tileDist x0 x1 r cc else c0

/-- same-label entries are +∞, the others keep their distance. -/
def tileNeg (x0 : Vec Ideal S1024x128 .f32) (x1 : Vec Ideal S512x128 .f32) (l0 : Vec Ideal S1024x1 .i32) (l1 : Vec Ideal S1x512 .i32)
    (r : Fin 1024) (cc : Fin 512) : EReal :=
  if l0 (ix2 r 0) = l1 (ix2 0 cc) then cInf else tileDist x0 x1 r cc

/-! ## Layout and reduction steps read at coordinates -/

/-- A vector of length `n` cast to an `n × 1` column reads, at row `r`, its entry `r`. -/
private theorem shapeCast_a_a1_apply {α : Type} {n : Nat} (v : (⟨1, ![n]⟩ : Shape).Idx → α)
    (h : (⟨1, ![n]⟩ : Shape).ShapeCasts ⟨2, ![n, 1]⟩) (r : Fin n) (u : Fin 1) :
    shapeCast ⟨2, ![n, 1]⟩ v h (ix2 r u) = v (ix1 r) :=
  shapeCast_apply v h _ _ (by
    have hu : u.val = 0 := by omega
    rw [Shape.rowMajor_val_two, Shape.rowMajor_val_one]
    show r.val = r.val * 1 + u.val
    omega)

/-- Over the second axis of an `n × m` matrix, the index above row `r` with coordinate `k` inserted is `(r, k)`. -/
private theorem lift_ix1 {n m : Nat} (h : (⟨2, ![n, m]⟩ : Shape).Reduces [1] ⟨1, ![n]⟩) (r : Fin n) (k : Fin m) :
    h.lift (ix1 r) k = ix2 r k := by
  funext a
  apply Fin.ext
  match a with
  | ⟨0, _⟩ => rfl
  | ⟨1, _⟩ => rfl

/-- A row sum of an `n × m` matrix, at row `r`, is the sum over the row's `m` entries. -/
private theorem rowSum_apply {n m : Nat} (v : FVec Ideal ⟨2, ![n, m]⟩ .f32) (h : (⟨2, ![n, m]⟩ : Shape).Reduces [1] ⟨1, ![n]⟩)
    (hφ : FKind.Formats .f32) (hacc : (0x00000000#32 : BitVec 32) = FKind.add.neutral .f32 hφ) (r : Fin n) :
    multiReduction (F := Ideal) .add [1] ⟨1, ![n]⟩ v 0x00000000#32 h hφ hacc (ix1 r) = ∑ k : Fin m, v (ix2 r k) :=
  (Ideal.multiReduction_add_single v _ h hφ hacc (ix1 r)).trans
    (Finset.sum_congr rfl fun k _ => congrArg v (lift_ix1 h r k))

/-- A row maximum of an `n × m` matrix from the accumulator's value, at row `r`: the fold of `max` over the row. -/
private theorem rowMax_apply {n m : Nat} (v : FVec Ideal ⟨2, ![n, m]⟩ .f32) (acc : BitVec 32) (h : (⟨2, ![n, m]⟩ : Shape).Reduces [1] ⟨1, ![n]⟩)
    (hφ : FKind.Formats .f32) (hacc : acc = FKind.maximumf.neutral .f32 hφ) (r : Fin n) :
    multiReduction (F := Ideal) .maximumf [1] ⟨1, ![n]⟩ v acc h hφ hacc (ix1 r)
      = (Finset.univ : Finset (Fin m)).fold max (Ideal.ofBits .f32 acc) (fun k => v (ix2 r k)) :=
  (Ideal.multiReduction_maximumf_single v acc h hφ hacc (ix1 r)).trans
    (congrArg (Finset.fold max (Ideal.ofBits .f32 acc) · (Finset.univ : Finset (Fin m))) (funext fun k => congrArg v (lift_ix1 h r k)))

/-- A row minimum likewise: the fold of `min` over the row. -/
private theorem rowMin_apply {n m : Nat} (v : FVec Ideal ⟨2, ![n, m]⟩ .f32) (acc : BitVec 32) (h : (⟨2, ![n, m]⟩ : Shape).Reduces [1] ⟨1, ![n]⟩)
    (hφ : FKind.Formats .f32) (hacc : acc = FKind.minimumf.neutral .f32 hφ) (r : Fin n) :
    multiReduction (F := Ideal) .minimumf [1] ⟨1, ![n]⟩ v acc h hφ hacc (ix1 r)
      = (Finset.univ : Finset (Fin m)).fold min (Ideal.ofBits .f32 acc) (fun k => v (ix2 r k)) := by
  rw [multiReduction_minimumf_eq_fold]
  refine (h.fold_filter_drop_single _ _ v (ix1 r)).trans ?_
  exact congrArg (Finset.fold min (Ideal.ofBits .f32 acc) · (Finset.univ : Finset (Fin m))) (funext fun k => congrArg v (lift_ix1 h r k))

/-- An `a × 1` column broadcast to `a × b` reads, at `(p, c)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## The select on an integer equality -/

/-- A select on the bit of `a = b` takes its first operand when they are equal … -/
private theorem select_cmpi_eq_pos {α : Type} {w : Nat} {a b : BitVec w} (h : a = b) (x y : α) :
    Scalar.select (IntOp.cmpi .eq a b) x y = x := by
  subst h
  simp [Scalar.select, IntOp.cmpi]

/-- … and its second when they differ. -/
private theorem select_cmpi_eq_neg {α : Type} {w : Nat} {a b : BitVec w} (h : ¬a = b) (x y : α) :
    Scalar.select (IntOp.cmpi .eq a b) x y = y := by
  show (if BitVec.ofBool (a == b) = 1#1 then x else y) = y
  rw [show (a == b) = false from beq_eq_false_iff_ne.mpr h]
  exact if_neg (by decide)

/-! ## The tile's matrix product read at coordinates -/

/-- The operands' indices of the product at output index `i` and contraction index `q`, axis by axis: the left operand's
    row is the output's row, -/
private theorem lhs_dot_0 (i : S1024x512.Idx) (q : dot_S1024x128_S512x128_S1024x512_1_1_0_0_n_n.contr.Idx) :
    (dot_S1024x128_S512x128_S1024x512_1_1_0_0_n_n.lhsIdx i q 0).val = (i 0).val := by
  unfold DotDims.lhsIdx
  rw [dif_neg (show ¬(0 : Fin S1024x128.rank) ∈ dot_S1024x128_S512x128_S1024x512_1_1_0_0_n_n.lhsBatch by decide), dif_pos (show (0 : Fin S1024x128.rank) ∈ dot_S1024x128_S512x128_S1024x512_1_1_0_0_n_n.lhsNonContracting by decide)]
  rfl
/-- its column the contraction's one coordinate; -/
private theorem lhs_dot_1 (i : S1024x512.Idx) (q : dot_S1024x128_S512x128_S1024x512_1_1_0_0_n_n.contr.Idx) :
    (dot_S1024x128_S512x128_S1024x512_1_1_0_0_n_n.lhsIdx i q 1).val = (q ⟨0, by decide⟩).val :=
  dot_S1024x128_S512x128_S1024x512_1_1_0_0_n_n.lhsIdx_val_of_single rfl i q
/-- the right operand's row is the output's column, -/
private theorem rhs_dot_0 (i : S1024x512.Idx) (q : dot_S1024x128_S512x128_S1024x512_1_1_0_0_n_n.contr.Idx) :
    (dot_S1024x128_S512x128_S1024x512_1_1_0_0_n_n.rhsIdx i q 0).val = (i 1).val := by
  unfold DotDims.rhsIdx
  rw [dif_neg (show ¬(0 : Fin S512x128.rank) ∈ dot_S1024x128_S512x128_S1024x512_1_1_0_0_n_n.rhsBatch by decide), dif_pos (show (0 : Fin S512x128.rank) ∈ dot_S1024x128_S512x128_S1024x512_1_1_0_0_n_n.rhsNonContracting by decide)]
  rfl
/-- and its column the contraction's one coordinate. -/
private theorem rhs_dot_1 (i : S1024x512.Idx) (q : dot_S1024x128_S512x128_S1024x512_1_1_0_0_n_n.contr.Idx) :
    (dot_S1024x128_S512x128_S1024x512_1_1_0_0_n_n.rhsIdx i q 1).val = (q ⟨0, by decide⟩).val :=
  dot_S1024x128_S512x128_S1024x512_1_1_0_0_n_n.rhsIdx_val_of_single rfl i q

/-- The product of the row tile and the transposed column tile, into the zero accumulator, at `(r, cc)`:
    the inner product of row `r` of the one and row `cc` of the other. -/
theorem matmul_tile_apply (a : FVec Ideal S1024x128 .bf16) (b : FVec Ideal S512x128 .bf16) (r : Fin 1024) (cc : Fin 512) :
    matmul dot_S1024x128_S512x128_S1024x512_1_1_0_0_n_n none a b (constant (F := Ideal) S1024x512 .f32 0x00000000#32) (ix2 r cc)
      = ∑ k : Fin 128, a (ix2 r k) * b (ix2 cc k) := by
  simp only [matmul]
  rw [Ideal.matmul_constant_zero_apply, ← Equiv.sum_comp (contrEquiv1 dot_S1024x128_S512x128_S1024x512_1_1_0_0_n_n 128 rfl rfl).symm]
  refine Finset.sum_congr rfl fun k _ => ?_
  have hk := contrEquiv1_symm_val dot_S1024x128_S512x128_S1024x512_1_1_0_0_n_n 128 rfl rfl k
  have el : dot_S1024x128_S512x128_S1024x512_1_1_0_0_n_n.lhsIdx (ix2 r cc) ((contrEquiv1 dot_S1024x128_S512x128_S1024x512_1_1_0_0_n_n 128 rfl rfl).symm k) = ix2 r k := funext fun ax => Fin.ext (by
    match ax with
    | ⟨0, _⟩ => exact lhs_dot_0 _ _
    | ⟨1, _⟩ => exact (lhs_dot_1 _ _).trans hk)
  have er : dot_S1024x128_S512x128_S1024x512_1_1_0_0_n_n.rhsIdx (ix2 r cc) ((contrEquiv1 dot_S1024x128_S512x128_S1024x512_1_1_0_0_n_n 128 rfl rfl).symm k) = ix2 cc k := funext fun ax => Fin.ext (by
    match ax with
    | ⟨0, _⟩ => exact rhs_dot_0 _ _
    | ⟨1, _⟩ => exact (rhs_dot_1 _ _).trans hk)
  rw [el, er]

/-! ## The distance matrix, the label mask, and the two accumulators at a row -/

/-- The distance matrix at `(r, cc)`. -/
theorem dist_apply (x0 : Vec Ideal S1024x128 .f32) (x1 : Vec Ideal S512x128 .f32) (r : Fin 1024) (cc : Fin 512) :
    k0_pay6 (F := Ideal) x0 x1 (ix2 r cc) = tileDist x0 x1 r cc := by
  unfold k0_pay6 tileDist
  refine congrArg Ideal.sqrt ?_
  refine congrArg (max · c0) ?_
  refine congrArg₂ (· - ·) ?_ ?_
  · refine congrArg₂ (· + ·) ?_ ?_
    · refine (broadcastTo_a1_ab_apply _ _ r cc 0).trans ?_
      refine (shapeCast_a_a1_apply _ _ r 0).trans ?_
      exact rowSum_apply _ _ _ _ r
    · refine (broadcastTo_1b_ab_apply _ _ r cc).trans ?_
      refine (transpose_ix2_apply _ _ 0 cc).trans ?_
      refine (shapeCast_a_a1_apply _ _ cc 0).trans ?_
      exact rowSum_apply _ _ _ _ cc
  · refine congrArg (c2 * ·) ?_
    exact matmul_tile_apply _ _ r cc

/-- The label mask at `(r, cc)`: the bit of "row `r`'s label is column `cc`'s". -/
theorem mask_apply (l0 : Vec Ideal S1024x1 .i32) (l1 : Vec Ideal S1x512 .i32) (r : Fin 1024) (cc : Fin 512) :
    k0_pay7 (F := Ideal) l0 l1 (ix2 r cc) = IntOp.cmpi .eq (l0 (ix2 r 0)) (l1 (ix2 0 cc)) := by
  unfold k0_pay7
  simp only [shapeCast_self]
  refine congrArg₂ (IntOp.cmpi .eq) ?_ ?_
  · exact broadcastTo_a1_ab_apply _ _ r cc 0
  · exact broadcastTo_1b_ab_apply _ _ r cc

theorem accMax_apply (x0 : Vec Ideal S1024x128 .f32) (x1 : Vec Ideal S512x128 .f32) (l0 : Vec Ideal S1024x1 .i32) (l1 : Vec Ideal S1x512 .i32)
    (s : Vec Ideal S1024x1 .f32) (r : Fin 1024) :
    accMax (F := Ideal) x0 x1 l0 l1 s (ix2 r 0)
      = max (s (ix2 r 0)) ((Finset.univ : Finset (Fin 512)).fold max cNegInf (tilePos x0 x1 l0 l1 r)) := by
  unfold accMax k0_pay1
  simp only [shapeCast_self]
  refine congrArg (max (s (ix2 r 0))) ?_
  unfold k0_pay8
  refine (shapeCast_a_a1_apply _ _ r 0).trans ?_
  refine (rowMax_apply _ _ _ _ _ r).trans ?_
  refine congrArg (Finset.fold max cNegInf · Finset.univ) (funext fun cc => ?_)
  show Scalar.select (k0_pay7 l0 l1 (ix2 r cc)) (k0_pay6 x0 x1 (ix2 r cc)) c0 = _
  rw [mask_apply, dist_apply]
  unfold tilePos
  by_cases h : l0 (ix2 r 0) = l1 (ix2 0 cc)
  · rw [if_pos h, select_cmpi_eq_pos h]
  · rw [if_neg h, select_cmpi_eq_neg h]

theorem accMin_apply (x0 : Vec Ideal S1024x128 .f32) (x1 : Vec Ideal S512x128 .f32) (l0 : Vec Ideal S1024x1 .i32) (l1 : Vec Ideal S1x512 .i32)
    (s : Vec Ideal S1024x1 .f32) (r : Fin 1024) :
    accMin (F := Ideal) x0 x1 l0 l1 s (ix2 r 0)
      = min (s (ix2 r 0)) ((Finset.univ : Finset (Fin 512)).fold min cInf (tileNeg x0 x1 l0 l1 r)) := by
  unfold accMin k0_pay2
  simp only [shapeCast_self]
  refine congrArg (min (s (ix2 r 0))) ?_
  refine (shapeCast_a_a1_apply _ _ r 0).trans ?_
  unfold k0_pay9
  refine (rowMin_apply _ _ _ _ _ r).trans ?_
  refine congrArg (Finset.fold min cInf · Finset.univ) (funext fun cc => ?_)
  show Scalar.select (k0_pay7 l0 l1 (ix2 r cc)) cInf (k0_pay6 x0 x1 (ix2 r cc)) = _
  rw [mask_apply, dist_apply]
  unfold tileNeg
  by_cases h : l0 (ix2 r 0) = l1 (ix2 0 cc)
  · rw [if_pos h, select_cmpi_eq_pos h]
  · rw [if_neg h, select_cmpi_eq_neg h]

theorem pay3_apply (a b : Vec Ideal S1024x1 .f32) (r : Fin 1024) :
    k0_pay3 (F := Ideal) a b (ix2 r 0) = max (a (ix2 r 0) - b (ix2 r 0) + cMargin) c0 := by
  rfl

theorem pay4_apply (r : Fin 1024) : k0_pay4 (F := Ideal) (ix2 r 0) = c0 := by
  unfold k0_pay4
  simp only [shapeCast_self]
  rfl

theorem pay5_apply (r : Fin 1024) : k0_pay5 (F := Ideal) (ix2 r 0) = cInf := by
  unfold k0_pay5
  simp only [shapeCast_self]
  rfl

end Cert.KernelIdeal.Val

end
-- ==== Proof.FoldTiles.lean ====
/-
  A maximum (minimum) over 8192 columns taken tile by tile, 16 tiles of 512 columns: folding the tiles' maxima
  into a running value that starts at 0 gives the maximum over all columns when no entry is negative, and folding
  the tiles' minima into a running value that starts at +∞ gives the minimum over all columns.
-/
import Mathlib.Data.EReal.Basic
import Mathlib.Order.Fin.Basic
import Mathlib.Data.Finset.Fold
import Mathlib.Data.Fintype.Basic

namespace Cert.FoldTiles

/-- Column `cc` of tile `jt`. -/
def col (jt : Fin 16) (cc : Fin 512) : Fin 8192 := ⟨512 * jt.val + cc.val, by have := jt.isLt; have := cc.isLt; omega⟩

/-- The maximum of tile `jt`, from -∞. -/
noncomputable def tileMax (f : Fin 8192 → EReal) (jt : Fin 16) : EReal :=
  (Finset.univ : Finset (Fin 512)).fold max ⊥ (fun cc => f (col jt cc))

/-- The minimum of tile `jt`, from +∞. -/
noncomputable def tileMin (f : Fin 8192 → EReal) (jt : Fin 16) : EReal :=
  (Finset.univ : Finset (Fin 512)).fold min ⊤ (fun cc => f (col jt cc))

/-- Every column lies in exactly one tile: column `j` is column `j % 512` of tile `j / 512`. -/
theorem col_surj (j : Fin 8192) : ∃ (jt : Fin 16) (cc : Fin 512), col jt cc = j := by
  have hj := j.isLt
  refine ⟨⟨j.val / 512, by omega⟩, ⟨j.val % 512, Nat.mod_lt _ (by norm_num)⟩, ?_⟩
  apply Fin.ext
  simp only [col]
  omega

/-- A bound is above a tile's maximum exactly when it is above every entry of the tile. -/
theorem tileMax_le (f : Fin 8192 → EReal) (jt : Fin 16) (c : EReal) :
    tileMax f jt ≤ c ↔ ∀ cc, f (col jt cc) ≤ c := by
  unfold tileMax
  rw [Finset.fold_max_le]
  simp

/-- A bound is below a tile's minimum exactly when it is below every entry of the tile. -/
theorem le_tileMin (f : Fin 8192 → EReal) (jt : Fin 16) (c : EReal) :
    c ≤ tileMin f jt ↔ ∀ cc, c ≤ f (col jt cc) := by
  unfold tileMin
  rw [Finset.le_fold_min]
  simp

/-- The upper bounds of the running maximum after tile `n` are the nonnegative upper bounds of the entries of
    tiles `0 … n`. -/
theorem accMax_le (f : Fin 8192 → EReal) (acc : ℕ → EReal)
    (hacc0 : acc 0 = max 0 (tileMax f 0))
    (hacc : ∀ (n : ℕ) (hn : n + 1 < 16), acc (n + 1) = max (acc n) (tileMax f ⟨n + 1, hn⟩))
    (n : ℕ) (hn : n < 16) (c : EReal) :
    acc n ≤ c ↔ 0 ≤ c ∧ ∀ jt : Fin 16, jt.val ≤ n → ∀ cc, f (col jt cc) ≤ c := by
  induction n with
  | zero =>
    rw [hacc0, max_le_iff, tileMax_le]
    constructor
    · rintro ⟨h1, h2⟩
      refine ⟨h1, fun jt hjt cc => ?_⟩
      have hjt0 : jt = 0 := Fin.ext (by simpa using hjt)
      subst hjt0
      exact h2 cc
    · rintro ⟨h1, h2⟩
      exact ⟨h1, fun cc => h2 0 (le_refl _) cc⟩
  | succ n ih =>
    rw [hacc n hn, max_le_iff, ih (by omega), tileMax_le]
    constructor
    · rintro ⟨⟨h1, h2⟩, h3⟩
      refine ⟨h1, fun jt hjt cc => ?_⟩
      rcases Nat.lt_or_ge jt.val (n + 1) with h | h
      · exact h2 jt (by omega) cc
      · have hjt1 : jt = ⟨n + 1, hn⟩ := Fin.ext (by simp only; omega)
        subst hjt1
        exact h3 cc
    · rintro ⟨h1, h2⟩
      exact ⟨⟨h1, fun jt hjt cc => h2 jt (by omega) cc⟩, fun cc => h2 ⟨n + 1, hn⟩ (le_refl _) cc⟩

/-- The lower bounds of the running minimum after tile `n` are the lower bounds of the entries of tiles
    `0 … n`. -/
theorem le_accMin (f : Fin 8192 → EReal) (acc : ℕ → EReal)
    (hacc0 : acc 0 = min ⊤ (tileMin f 0))
    (hacc : ∀ (n : ℕ) (hn : n + 1 < 16), acc (n + 1) = min (acc n) (tileMin f ⟨n + 1, hn⟩))
    (n : ℕ) (hn : n < 16) (c : EReal) :
    c ≤ acc n ↔ ∀ jt : Fin 16, jt.val ≤ n → ∀ cc, c ≤ f (col jt cc) := by
  induction n with
  | zero =>
    rw [hacc0, le_min_iff, le_tileMin]
    constructor
    · rintro ⟨_, h2⟩ jt hjt cc
      have hjt0 : jt = 0 := Fin.ext (by simpa using hjt)
      subst hjt0
      exact h2 cc
    · intro h2
      exact ⟨le_top, fun cc => h2 0 (le_refl _) cc⟩
  | succ n ih =>
    rw [hacc n hn, le_min_iff, ih (by omega), le_tileMin]
    constructor
    · rintro ⟨h2, h3⟩ jt hjt cc
      rcases Nat.lt_or_ge jt.val (n + 1) with h | h
      · exact h2 jt (by omega) cc
      · have hjt1 : jt = ⟨n + 1, hn⟩ := Fin.ext (by simp only; omega)
        subst hjt1
        exact h3 cc
    · intro h2
      exact ⟨fun jt hjt cc => h2 jt (by omega) cc, fun cc => h2 ⟨n + 1, hn⟩ (le_refl _) cc⟩

/-- A running maximum over the tiles that starts from 0 ends at the maximum over all columns, when no entry is
    negative. -/
theorem foldMax_tiles (f : Fin 8192 → EReal) (h0 : ∀ j, 0 ≤ f j) (acc : ℕ → EReal)
    (hacc0 : acc 0 = max 0 (tileMax f 0))
    (hacc : ∀ (n : ℕ) (hn : n + 1 < 16), acc (n + 1) = max (acc n) (tileMax f ⟨n + 1, hn⟩)) :
    acc 15 = (Finset.univ : Finset (Fin 8192)).fold max ⊥ f := by
  -- both sides have the same upper bounds
  refine eq_of_forall_ge_iff fun c => ?_
  rw [accMax_le f acc hacc0 hacc 15 (by norm_num) c, Finset.fold_max_le]
  constructor
  · rintro ⟨_, h⟩
    refine ⟨bot_le, fun j _ => ?_⟩
    obtain ⟨jt, cc, rfl⟩ := col_surj j
    exact h jt (by have := jt.isLt; omega) cc
  · rintro ⟨_, h⟩
    refine ⟨le_trans (h0 ⟨0, by norm_num⟩) (h _ (Finset.mem_univ _)), fun jt _ cc => h _ (Finset.mem_univ _)⟩

/-- A running minimum over the tiles that starts from +∞ ends at the minimum over all columns. -/
theorem foldMin_tiles (f : Fin 8192 → EReal) (acc : ℕ → EReal)
    (hacc0 : acc 0 = min ⊤ (tileMin f 0))
    (hacc : ∀ (n : ℕ) (hn : n + 1 < 16), acc (n + 1) = min (acc n) (tileMin f ⟨n + 1, hn⟩)) :
    acc 15 = (Finset.univ : Finset (Fin 8192)).fold min ⊤ f := by
  -- both sides have the same lower bounds
  refine eq_of_forall_le_iff fun c => ?_
  rw [le_accMin f acc hacc0 hacc 15 (by norm_num) c, Finset.le_fold_min]
  constructor
  · intro h
    refine ⟨le_top, fun j _ => ?_⟩
    obtain ⟨jt, cc, rfl⟩ := col_surj j
    exact h jt (by have := jt.isLt; omega) cc
  · rintro ⟨_, h⟩ jt _ cc
    exact h _ (Finset.mem_univ _)

end Cert.FoldTiles
-- ==== Proof.SpecIdx.lean ====
/-
  Reading the programs' argument arrays as the specification's inputs: the embeddings as a function of the row and
  the coordinate, the labels as a function of the row.
-/
import proofs.«175456_j39599598469579_1_alg».proof.Proof.Spec
import Idealize.ShloMosaic.Lib.ValueIdx

noncomputable section

namespace Cert.Spec

open Idealize.ShloMosaic Idealize.ShloMosaic.ValueIdx

/-- The embeddings, by row and coordinate. -/
def xOf (a : (⟨2, ![8192, 128]⟩ : Shape).Idx → EReal) : Fin 8192 → Fin 128 → EReal := fun i k => a (ix2 i k)

/-- The labels, by row. -/
def labOf (l : (⟨1, ![8192]⟩ : Shape).Idx → BitVec 32) : Fin 8192 → BitVec 32 := fun i => l (ix1 i)

end Cert.Spec

end
-- ==== Proof.KV.Value.lean ====
/-
  The kernel's result is the specification's mean loss.

  The region writes back one output block per row tile, at that tile's last column tile; block i holds, for each of
  its 1024 rows, max(hardest positive - hardest negative + margin, 0), where the two are the running maximum and
  minimum after all 16 column tiles: the maximum from 0 over every column (no masked distance is negative, so the 0
  is absorbed) and the minimum from +∞ over every column. The blocks tile the result array, the later lines sum it
  and divide by 8192.

  Row r of row tile i is row 1024 i + r of the embeddings and column cc of column tile j is row 512 j + cc of the
  same array; the labels reach the region as a column and as a row of the same 8192 words. So a tile's masked
  distances are the specification's at (1024 i + r, 512 j + cc), the running values after column tile j are the fold
  of tiles 0 … j, and after tile 15 the fold over all 8192 columns.
-/
import proofs.«175456_j39599598469579_1_alg».proof.Proof.KI.Launch
import proofs.«175456_j39599598469579_1_alg».proof.Proof.KV.Tile
import proofs.«175456_j39599598469579_1_alg».proof.Proof.FoldTiles
import proofs.«175456_j39599598469579_1_alg».proof.Proof.SpecIdx
import Idealize.ShloMosaic.Lib.Pipeline.Value
import Idealize.ShloMosaic.Lib.StableHlo.Run
import Idealize.ShloMosaic.PureOps.Ideal.Laws
import Mathlib.Analysis.Real.Sqrt
import Mathlib.Data.EReal.Basic
import Mathlib.Algebra.BigOperators.Group.Finset.Defs
import Mathlib.Logic.Function.Basic

set_option maxRecDepth 16384

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx
open Idealize.SL.Sem

variable (m : (ℓ : Loc nD τ sig) → Buf (Elt Ideal) ℓ)

/-- The embeddings and the labels as the specification reads them. -/
abbrev xs (c : Dev nD) : Fin 8192 → Fin 128 → EReal := xOf (m ((c : Thread nD τ).loc main_arg0))
abbrev labs (c : Dev nD) : Fin 8192 → BitVec 32 := labOf (m ((c : Thread nD τ).loc main_arg1))

namespace Rows

/-! ## Where each window's block sits -/

/-- The block indices at point t = 16 i + j: the row tile i for the embeddings' first window, the row labels and the
    output; the column tile j for the embeddings' second window and the column labels. -/
theorem idx_facts : ∀ t : Fin cfg0.N,
    win0_0.index t (0 : Fin 2) = t.val / 16 ∧ win0_0.index t (1 : Fin 2) = 0
  ∧ win0_1.index t (0 : Fin 2) = t.val % 16 ∧ win0_1.index t (1 : Fin 2) = 0
  ∧ win0_2.index t (0 : Fin 2) = t.val / 16 ∧ win0_2.index t (1 : Fin 2) = 0
  ∧ win0_3.index t (0 : Fin 2) = 0 ∧ win0_3.index t (1 : Fin 2) = t.val % 16
  ∧ win0_4.index t (0 : Fin 2) = t.val / 16 ∧ win0_4.index t (1 : Fin 2) = 0 :=
  (by decide +kernel : ∀ t : Fin grid0.N, _)

/-- Row r of the row tile is row 1024 (t / 16) + r of the embeddings. -/
theorem qblk_apply (c : Dev nD) (t : Fin cfg0.N) (r : Fin 1024) (k : Fin 128) (i : Fin 8192) (hi : i.val = 1024 * (t.val / 16) + r.val) :
    qblk m c t (ix2 r k) = m ((c : Thread nD τ).loc main_arg0) (ix2 i k) := by
  obtain ⟨e00, e01, -⟩ := idx_facts t
  unfold qblk iblk
  rw [View.read_apply]
  show V m c main_arg0 _ = _
  refine (congrFun (V_main_arg0 m c) _).trans ?_
  congr 1
  funext a
  apply Fin.ext
  match a with
  | ⟨0, _⟩ => show win0_0.index t 0 * 1024 + 1 * r.val = i.val; rw [e00, hi]; omega
  | ⟨1, _⟩ => show win0_0.index t 1 * 128 + 1 * k.val = k.val; rw [e01]; omega

/-- Row cc of the column tile is row 512 (t % 16) + cc of the embeddings. -/
theorem kblk_apply (c : Dev nD) (t : Fin cfg0.N) (cc : Fin 512) (k : Fin 128) (j : Fin 8192) (hj : j.val = 512 * (t.val % 16) + cc.val) :
    kblk m c t (ix2 cc k) = m ((c : Thread nD τ).loc main_arg0) (ix2 j k) := by
  obtain ⟨-, -, e10, e11, -⟩ := idx_facts t
  unfold kblk iblk
  rw [View.read_apply]
  show V m c main_arg0 _ = _
  refine (congrFun (V_main_arg0 m c) _).trans ?_
  congr 1
  funext a
  apply Fin.ext
  match a with
  | ⟨0, _⟩ => show win0_1.index t 0 * 512 + 1 * cc.val = j.val; rw [e10, hj]; omega
  | ⟨1, _⟩ => show win0_1.index t 1 * 128 + 1 * k.val = k.val; rw [e11]; omega

/-- The labels as a column and as a row: the two reshapes of the label vector. -/
theorem v0_eq (c : Dev nD) : (V m c main_v0 : S8192x1.Idx → BitVec 32) = shapeCast S8192x1 (m ((c : Thread nD τ).loc main_arg1)) shapeCasts_S8192_S8192x1 := by
  show StableHlo.after hostOps0 (fun b => m (c, b)) (Proc.devRef .tc main_v0) = _
  after_results
  rfl
theorem v1_eq (c : Dev nD) : (V m c main_v1 : S1x8192.Idx → BitVec 32) = shapeCast S1x8192 (m ((c : Thread nD τ).loc main_arg1)) shapeCasts_S8192_S1x8192 := by
  show StableHlo.after hostOps0 (fun b => m (c, b)) (Proc.devRef .tc main_v1) = _
  after_results
  rfl

/-- Entry r of the row tile's labels is label 1024 (t / 16) + r. -/
theorem lrow_apply (c : Dev nD) (t : Fin cfg0.N) (r : Fin 1024) (i : Fin 8192) (hi : i.val = 1024 * (t.val / 16) + r.val) :
    lrow m c t (ix2 r 0) = m ((c : Thread nD τ).loc main_arg1) (ix1 i) := by
  obtain ⟨-, -, -, -, e20, e21, -⟩ := idx_facts t
  unfold lrow iblk
  rw [View.read_apply]
  show V m c main_v0 _ = _
  refine (congrFun (v0_eq m c) _).trans ?_
  refine shapeCast_apply _ _ _ (ix1 i) ?_
  rw [Shape.rowMajor_val_one, Shape.rowMajor_val_two]
  show i.val = (win0_2.index t 0 * 1024 + 1 * r.val) * 1 + (win0_2.index t 1 * 1 + 1 * 0)
  rw [e20, e21, hi]; omega

/-- Entry cc of the column tile's labels is label 512 (t % 16) + cc. -/
theorem lcol_apply (c : Dev nD) (t : Fin cfg0.N) (cc : Fin 512) (j : Fin 8192) (hj : j.val = 512 * (t.val % 16) + cc.val) :
    lcol m c t (ix2 0 cc) = m ((c : Thread nD τ).loc main_arg1) (ix1 j) := by
  obtain ⟨-, -, -, -, -, -, e30, e31, -⟩ := idx_facts t
  unfold lcol iblk
  rw [View.read_apply]
  show V m c main_v1 _ = _
  refine (congrFun (v1_eq m c) _).trans ?_
  refine shapeCast_apply _ _ _ (ix1 j) ?_
  rw [Shape.rowMajor_val_one, Shape.rowMajor_val_two]
  show j.val = (win0_3.index t 0 * 1 + 1 * 0) * 8192 + (win0_3.index t 1 * 512 + 1 * cc.val)
  rw [e30, e31, hj]; omega

/-! ## The literals -/

theorem c0_eq : (c0 : EReal) = 0 := Ideal.ofBits_zero_f32
theorem cNegInf_eq : (cNegInf : EReal) = ⊥ := by simp [Ideal.ofBits, Ideal.ieee]
theorem cInf_eq : (cInf : EReal) = ⊤ := by simp [Ideal.ofBits, Ideal.ieee]

/-- The square root of a nonnegative extended real is nonnegative. -/
theorem sqrt_nonneg (x : EReal) (hx : 0 ≤ x) : 0 ≤ Ideal.sqrt x := by
  induction x using EReal.rec with
  | bot => exact absurd hx (not_le.mpr EReal.bot_lt_zero)
  | top => exact le_top
  | coe r =>
    have hr : 0 ≤ r := EReal.coe_nonneg.mp hx
    show 0 ≤ (if r < 0 then ⊥ else (Real.sqrt r : EReal))
    rw [if_neg (not_lt.mpr hr)]
    exact EReal.coe_nonneg.mpr (Real.sqrt_nonneg r)

/-- No masked distance of the hardest-positive search is negative. -/
theorem posMasked_nonneg (x : Fin 8192 → Fin 128 → EReal) (lab : Fin 8192 → BitVec 32) (i j : Fin 8192) :
    0 ≤ posMasked x lab i j := by
  unfold posMasked
  split
  · unfold Cert.Spec.dist
    exact sqrt_nonneg _ (by rw [c0_eq]; exact le_max_right _ _)
  · rw [c0_eq]

/-! ## A tile's entries are the specification's -/

/-- A tile's distance at (r, cc) is the specification's distance of the two rows the entries are read from. -/
theorem tileDist_eq (x0 : Vec Ideal S1024x128 .f32) (x1 : Vec Ideal S512x128 .f32)
    (x : Fin 8192 → Fin 128 → EReal) (r : Fin 1024) (cc : Fin 512) (i j : Fin 8192)
    (h0 : ∀ k, x0 (ix2 r k) = x i k) (h1 : ∀ k, x1 (ix2 cc k) = x j k) :
    tileDist x0 x1 r cc = Cert.Spec.dist x i j := by
  unfold tileDist Cert.Spec.dist Cert.Spec.sq Cert.Spec.dot
  simp only [h0, h1]

/-- so are its masked distances, for the maximum -/
theorem tilePos_eq (x0 : Vec Ideal S1024x128 .f32) (x1 : Vec Ideal S512x128 .f32) (l0 : Vec Ideal S1024x1 .i32) (l1 : Vec Ideal S1x512 .i32)
    (x : Fin 8192 → Fin 128 → EReal) (lab : Fin 8192 → BitVec 32) (r : Fin 1024) (cc : Fin 512) (i j : Fin 8192)
    (h0 : ∀ k, x0 (ix2 r k) = x i k) (h1 : ∀ k, x1 (ix2 cc k) = x j k) (hl0 : l0 (ix2 r 0) = lab i) (hl1 : l1 (ix2 0 cc) = lab j) :
    tilePos x0 x1 l0 l1 r cc = posMasked x lab i j := by
  unfold tilePos posMasked
  rw [hl0, hl1, tileDist_eq x0 x1 x r cc i j h0 h1]

/-- and for the minimum. -/
theorem tileNeg_eq (x0 : Vec Ideal S1024x128 .f32) (x1 : Vec Ideal S512x128 .f32) (l0 : Vec Ideal S1024x1 .i32) (l1 : Vec Ideal S1x512 .i32)
    (x : Fin 8192 → Fin 128 → EReal) (lab : Fin 8192 → BitVec 32) (r : Fin 1024) (cc : Fin 512) (i j : Fin 8192)
    (h0 : ∀ k, x0 (ix2 r k) = x i k) (h1 : ∀ k, x1 (ix2 cc k) = x j k) (hl0 : l0 (ix2 r 0) = lab i) (hl1 : l1 (ix2 0 cc) = lab j) :
    tileNeg x0 x1 l0 l1 r cc = negMasked x lab i j := by
  unfold tileNeg negMasked
  rw [hl0, hl1, tileDist_eq x0 x1 x r cc i j h0 h1]

/-! ## The accumulators, point by point -/

/-- The accumulators depend on the point only. -/
theorem S0_congr (c : Dev nD) (n n' : ℕ) (hn : n < cfg0.N) (hn' : n' < cfg0.N) (e : n = n') :
    S0 m c n hn = S0 m c n' hn' := by subst e; rfl
theorem S1_congr (c : Dev nD) (n n' : ℕ) (hn : n < cfg0.N) (hn' : n' < cfg0.N) (e : n = n') :
    S1 m c n hn = S1 m c n' hn' := by subst e; rfl

/-- After point n the running maximum at row r of the row tile is the maximum of what the point before left (0 at
    a first column tile) and the maximum of this column tile's masked distances. -/
theorem S0_at (c : Dev nD) (n : ℕ) (hn : n < cfg0.N) (r : Fin 1024) (i : Fin 8192) (hi : i.val = 1024 * (n / 16) + r.val)
    (jt : Fin 16) (hjt : jt.val = n % 16) :
    S0 m c n hn (ix2 r 0)
      = max (if n % 16 = 0 then 0 else S0 m c (n - 1) (Nat.lt_of_le_of_lt (Nat.sub_le _ _) hn) (ix2 r 0))
          (Cert.FoldTiles.tileMax (posMasked (xs m c) (labs m c) i) jt) := by
  have hf : tilePos (qblk m c ⟨n, hn⟩) (kblk m c ⟨n, hn⟩) (lrow m c ⟨n, hn⟩) (lcol m c ⟨n, hn⟩) r
      = fun cc => posMasked (xs m c) (labs m c) i (Cert.FoldTiles.col jt cc) := funext fun cc =>
    tilePos_eq (qblk m c ⟨n, hn⟩) (kblk m c ⟨n, hn⟩) (lrow m c ⟨n, hn⟩) (lcol m c ⟨n, hn⟩) (xs m c) (labs m c) r cc i
      (Cert.FoldTiles.col jt cc)
      (fun k => qblk_apply m c ⟨n, hn⟩ r k i hi)
      (fun k => kblk_apply m c ⟨n, hn⟩ cc k (Cert.FoldTiles.col jt cc) (by show 512 * jt.val + cc.val = _; rw [hjt]))
      (lrow_apply m c ⟨n, hn⟩ r i hi)
      (lcol_apply m c ⟨n, hn⟩ cc (Cert.FoldTiles.col jt cc) (by show 512 * jt.val + cc.val = _; rw [hjt]))
  have key : ∀ s : Vec Ideal S1024x1 .f32,
      accMax (F := Ideal) (qblk m c ⟨n, hn⟩) (kblk m c ⟨n, hn⟩) (lrow m c ⟨n, hn⟩) (lcol m c ⟨n, hn⟩) s (ix2 r 0)
        = max (s (ix2 r 0)) (Cert.FoldTiles.tileMax (posMasked (xs m c) (labs m c) i) jt) := fun s => by
    refine (accMax_apply (qblk m c ⟨n, hn⟩) (kblk m c ⟨n, hn⟩) (lrow m c ⟨n, hn⟩) (lcol m c ⟨n, hn⟩) s r).trans ?_
    rw [hf, cNegInf_eq]
    rfl
  by_cases h : n % 16 = 0
  · rw [if_pos h]
    refine (congrFun (S0_reset m c ⟨n, hn⟩ h) (ix2 r 0)).trans ?_
    refine (key _).trans ?_
    rw [pay4_apply, c0_eq]
  · rw [if_neg h]
    refine (congrFun (S0_step m c ⟨n, hn⟩ h) (ix2 r 0)).trans ?_
    exact key _

/-- The running minimum likewise, from +∞. -/
theorem S1_at (c : Dev nD) (n : ℕ) (hn : n < cfg0.N) (r : Fin 1024) (i : Fin 8192) (hi : i.val = 1024 * (n / 16) + r.val)
    (jt : Fin 16) (hjt : jt.val = n % 16) :
    S1 m c n hn (ix2 r 0)
      = min (if n % 16 = 0 then ⊤ else S1 m c (n - 1) (Nat.lt_of_le_of_lt (Nat.sub_le _ _) hn) (ix2 r 0))
          (Cert.FoldTiles.tileMin (negMasked (xs m c) (labs m c) i) jt) := by
  have hf : tileNeg (qblk m c ⟨n, hn⟩) (kblk m c ⟨n, hn⟩) (lrow m c ⟨n, hn⟩) (lcol m c ⟨n, hn⟩) r
      = fun cc => negMasked (xs m c) (labs m c) i (Cert.FoldTiles.col jt cc) := funext fun cc =>
    tileNeg_eq (qblk m c ⟨n, hn⟩) (kblk m c ⟨n, hn⟩) (lrow m c ⟨n, hn⟩) (lcol m c ⟨n, hn⟩) (xs m c) (labs m c) r cc i
      (Cert.FoldTiles.col jt cc)
      (fun k => qblk_apply m c ⟨n, hn⟩ r k i hi)
      (fun k => kblk_apply m c ⟨n, hn⟩ cc k (Cert.FoldTiles.col jt cc) (by show 512 * jt.val + cc.val = _; rw [hjt]))
      (lrow_apply m c ⟨n, hn⟩ r i hi)
      (lcol_apply m c ⟨n, hn⟩ cc (Cert.FoldTiles.col jt cc) (by show 512 * jt.val + cc.val = _; rw [hjt]))
  have key : ∀ s : Vec Ideal S1024x1 .f32,
      accMin (F := Ideal) (qblk m c ⟨n, hn⟩) (kblk m c ⟨n, hn⟩) (lrow m c ⟨n, hn⟩) (lcol m c ⟨n, hn⟩) s (ix2 r 0)
        = min (s (ix2 r 0)) (Cert.FoldTiles.tileMin (negMasked (xs m c) (labs m c) i) jt) := fun s => by
    refine (accMin_apply (qblk m c ⟨n, hn⟩) (kblk m c ⟨n, hn⟩) (lrow m c ⟨n, hn⟩) (lcol m c ⟨n, hn⟩) s r).trans ?_
    rw [hf, cInf_eq]
    rfl
  by_cases h : n % 16 = 0
  · rw [if_pos h]
    refine (congrFun (S1_reset m c ⟨n, hn⟩ h) (ix2 r 0)).trans ?_
    refine (key _).trans ?_
    rw [pay5_apply, cInf_eq]
  · rw [if_neg h]
    refine (congrFun (S1_step m c ⟨n, hn⟩ h) (ix2 r 0)).trans ?_
    exact key _

/-! ## After a row tile's last column tile -/

/-- The running maximum after the last column tile of row tile bi is the hardest positive of the row. -/
theorem hardPos_eq (c : Dev nD) (bi : Fin 8) (r : Fin 1024) (i : Fin 8192) (hi : i.val = 1024 * bi.val + r.val)
    (h : 16 * bi.val + 15 < cfg0.N) :
    S0 m c (16 * bi.val + 15) h (ix2 r 0) = hardPos (xs m c) (labs m c) i := by
  have hN : cfg0.N = 128 := N_0
  have hb : bi.val < 8 := bi.isLt
  let acc : ℕ → EReal := fun n => if h : 16 * bi.val + n < cfg0.N then S0 m c (16 * bi.val + n) h (ix2 r 0) else 0
  have hacc0 : acc 0 = max 0 (Cert.FoldTiles.tileMax (posMasked (xs m c) (labs m c) i) 0) := by
    have h0 : 16 * bi.val + 0 < cfg0.N := by rw [hN]; omega
    show (if h : 16 * bi.val + 0 < cfg0.N then S0 m c (16 * bi.val + 0) h (ix2 r 0) else 0) = _
    rw [dif_pos h0, S0_at m c (16 * bi.val + 0) h0 r i (by rw [hi]; omega) 0 (by show 0 = _; omega),
      if_pos (by omega)]
  have hacc : ∀ (n : ℕ) (hn : n + 1 < 16), acc (n + 1) = max (acc n) (Cert.FoldTiles.tileMax (posMasked (xs m c) (labs m c) i) ⟨n + 1, hn⟩) := by
    intro n hn
    have h1 : 16 * bi.val + (n + 1) < cfg0.N := by rw [hN]; omega
    have h0 : 16 * bi.val + n < cfg0.N := by rw [hN]; omega
    show (if h : 16 * bi.val + (n + 1) < cfg0.N then S0 m c (16 * bi.val + (n + 1)) h (ix2 r 0) else 0)
      = max (if h : 16 * bi.val + n < cfg0.N then S0 m c (16 * bi.val + n) h (ix2 r 0) else 0) _
    rw [dif_pos h1, dif_pos h0, S0_at m c (16 * bi.val + (n + 1)) h1 r i (by rw [hi]; omega) ⟨n + 1, hn⟩ (by show n + 1 = _; omega),
      if_neg (by omega), S0_congr m c (16 * bi.val + (n + 1) - 1) (16 * bi.val + n) _ h0 (by omega)]
  have hfold := Cert.FoldTiles.foldMax_tiles (posMasked (xs m c) (labs m c) i) (posMasked_nonneg _ _ i) acc hacc0 hacc
  unfold hardPos
  rw [cNegInf_eq, ← hfold]
  show _ = (if h : 16 * bi.val + 15 < cfg0.N then S0 m c (16 * bi.val + 15) h (ix2 r 0) else 0)
  rw [dif_pos h]

/-- The running minimum after the last column tile of row tile bi is the hardest negative of the row. -/
theorem hardNeg_eq (c : Dev nD) (bi : Fin 8) (r : Fin 1024) (i : Fin 8192) (hi : i.val = 1024 * bi.val + r.val)
    (h : 16 * bi.val + 15 < cfg0.N) :
    S1 m c (16 * bi.val + 15) h (ix2 r 0) = hardNeg (xs m c) (labs m c) i := by
  have hN : cfg0.N = 128 := N_0
  have hb : bi.val < 8 := bi.isLt
  let acc : ℕ → EReal := fun n => if h : 16 * bi.val + n < cfg0.N then S1 m c (16 * bi.val + n) h (ix2 r 0) else 0
  have hacc0 : acc 0 = min ⊤ (Cert.FoldTiles.tileMin (negMasked (xs m c) (labs m c) i) 0) := by
    have h0 : 16 * bi.val + 0 < cfg0.N := by rw [hN]; omega
    show (if h : 16 * bi.val + 0 < cfg0.N then S1 m c (16 * bi.val + 0) h (ix2 r 0) else 0) = _
    rw [dif_pos h0, S1_at m c (16 * bi.val + 0) h0 r i (by rw [hi]; omega) 0 (by show 0 = _; omega),
      if_pos (by omega)]
  have hacc : ∀ (n : ℕ) (hn : n + 1 < 16), acc (n + 1) = min (acc n) (Cert.FoldTiles.tileMin (negMasked (xs m c) (labs m c) i) ⟨n + 1, hn⟩) := by
    intro n hn
    have h1 : 16 * bi.val + (n + 1) < cfg0.N := by rw [hN]; omega
    have h0 : 16 * bi.val + n < cfg0.N := by rw [hN]; omega
    show (if h : 16 * bi.val + (n + 1) < cfg0.N then S1 m c (16 * bi.val + (n + 1)) h (ix2 r 0) else 0)
      = min (if h : 16 * bi.val + n < cfg0.N then S1 m c (16 * bi.val + n) h (ix2 r 0) else 0) _
    rw [dif_pos h1, dif_pos h0, S1_at m c (16 * bi.val + (n + 1)) h1 r i (by rw [hi]; omega) ⟨n + 1, hn⟩ (by show n + 1 = _; omega),
      if_neg (by omega), S1_congr m c (16 * bi.val + (n + 1) - 1) (16 * bi.val + n) _ h0 (by omega)]
  have hfold := Cert.FoldTiles.foldMin_tiles (negMasked (xs m c) (labs m c) i) acc hacc0 hacc
  unfold hardNeg
  rw [cInf_eq, ← hfold]
  show _ = (if h : 16 * bi.val + 15 < cfg0.N then S1 m c (16 * bi.val + 15) h (ix2 r 0) else 0)
  rw [dif_pos h]

/-! ## From the blocks to the array -/

/-- The array of the rows' losses. -/
abbrev lossG (c : Dev nD) : Buf (Elt Ideal) ((c : Thread nD τ).loc main_v2) :=
  fun idx : S8192x1.Idx => loss (xs m c) (labs m c) (idx 0)

/-- The block written back at a row tile's last column tile holds the losses of the tile's rows. -/
theorem flushed_eq (c : Dev nD) (t : Fin cfg0.N) (hf : (cfg0.win 4).flush t = true) :
    (dats m 0 c).flushed 4 t = ((cfg0.win 4).blk t).view.read (Elt Ideal) (lossG m c) := by
  have hN : cfg0.N = 128 := N_0
  have ht : t.val < 128 := lt_of_lt_of_eq t.isLt hN
  have h15 : t.val % 16 = 15 := (flush0_4 t).mp hf
  obtain ⟨-, -, -, -, -, -, -, -, e40, e41⟩ := idx_facts t
  show (cfg0.win 4).cut (grid0.coords t) ((dats m 0 c).after 4 t) = _
  rw [after0_4]
  funext y
  rw [View.read_apply]
  have hy0 : (y 0).val < 1024 := (y 0).isLt
  have hy1 : (y 1).val < 1 := (y 1).isLt
  show k0_pay3 (F := Ideal) (S0 m c t.val t.isLt) (S1 m c t.val t.isLt) ((cfg0.win 4).xinj (grid0.coords t) y)
    = loss (xs m c) (labs m c) (((cfg0.win 4).blk t).view.emb y 0)
  have e1 : ((cfg0.win 4).xinj (grid0.coords t) y : S1024x1.Idx) = ix2 ⟨(y 0).val, hy0⟩ 0 := by
    funext a; apply Fin.ext
    match a with
    | ⟨0, _⟩ => rfl
    | ⟨1, _⟩ => show (y 1).val = 0; omega
  refine (congrArg (k0_pay3 (F := Ideal) (S0 m c t.val t.isLt) (S1 m c t.val t.isLt)) e1).trans ?_
  refine (pay3_apply (S0 m c t.val t.isLt) (S1 m c t.val t.isLt) ⟨(y 0).val, hy0⟩).trans ?_
  have key : ∀ i : Fin 8192, i.val = 1024 * (t.val / 16) + (y 0).val →
      max (S0 m c t.val t.isLt (ix2 ⟨(y 0).val, hy0⟩ 0) - S1 m c t.val t.isLt (ix2 ⟨(y 0).val, hy0⟩ 0) + cMargin) c0
        = loss (xs m c) (labs m c) i := by
    intro i hi
    have hb : 16 * (t.val / 16) + 15 < cfg0.N := lt_of_lt_of_eq (show 16 * (t.val / 16) + 15 < 128 by omega) hN.symm
    rw [S0_congr m c t.val (16 * (t.val / 16) + 15) t.isLt hb (by omega),
      S1_congr m c t.val (16 * (t.val / 16) + 15) t.isLt hb (by omega),
      hardPos_eq m c ⟨t.val / 16, by omega⟩ ⟨(y 0).val, hy0⟩ i hi hb,
      hardNeg_eq m c ⟨t.val / 16, by omega⟩ ⟨(y 0).val, hy0⟩ i hi hb]
    rfl
  exact key _ (by show win0_4.index t 0 * 1024 + 1 * (y 0).val = _; rw [e40]; omega)

/-- Every row lies in the block of its row tile's last column tile. -/
theorem cover (i : S8192x1.Idx) :
    ∃ t : Fin cfg0.N, (cfg0.win 4).flush t = true ∧ i ∈ ((cfg0.win 4).blk t).view.set := by
  have hN : cfg0.N = 128 := N_0
  have hi0 : (i 0).val < 8192 := (i 0).isLt
  have hi1 : (i 1).val < 1 := (i 1).isLt
  have htN : 16 * ((i 0).val / 1024) + 15 < cfg0.N := by rw [hN]; omega
  obtain ⟨-, -, -, -, -, -, -, -, e40, e41⟩ := idx_facts ⟨16 * ((i 0).val / 1024) + 15, htN⟩
  have e40' : win0_4.index ⟨16 * ((i 0).val / 1024) + 15, htN⟩ 0 = (16 * ((i 0).val / 1024) + 15) / 16 := e40
  refine ⟨⟨16 * ((i 0).val / 1024) + 15, htN⟩, (flush0_4 _).mpr (by show (16 * ((i 0).val / 1024) + 15) % 16 = 15; omega), ?_⟩
  show i ∈ ((View.whole main_v2).slice (win0_4.rect ⟨16 * ((i 0).val / 1024) + 15, htN⟩)).set
  rw [View.set_slice_whole, Rect.mem_set_unit]
  intro a
  match a with
  | ⟨0, _⟩ =>
    show win0_4.index ⟨16 * ((i 0).val / 1024) + 15, htN⟩ 0 * 1024 ≤ (i 0).val
      ∧ (i 0).val < win0_4.index ⟨16 * ((i 0).val / 1024) + 15, htN⟩ 0 * 1024 + 1024
    rw [e40']; omega
  | ⟨1, _⟩ =>
    show win0_4.index ⟨16 * ((i 0).val / 1024) + 15, htN⟩ 1 * 1 ≤ (i 1).val
      ∧ (i 1).val < win0_4.index ⟨16 * ((i 0).val / 1024) + 15, htN⟩ 1 * 1 + 1
    rw [e41]; omega

/-- An index of the one-column array is its row. -/
def rowEquiv : (⟨2, ![8192, 1]⟩ : Shape).Idx ≃ Fin 8192 where
  toFun j := j 0
  invFun i := ix2 i 0
  left_inv j := by
    funext a
    match a with
    | ⟨0, _⟩ => rfl
    | ⟨1, _⟩ => exact Fin.ext (by have := idx2_lt1 j; show 0 = (j 1).val; omega)
  right_inv i := rfl

end Rows

/-! ## The array the region wrote back, and its mean -/

/-- Row `i` of the array the region wrote back holds that row's loss. -/
theorem lossArr_apply (c : Dev nD) (i : Fin 8192) :
    lossArr (F := Ideal) m c (ix2 i 0) = loss (xs m c) (labs m c) i :=
  congrFun ((dats m 0 c).arrAt_eq_of_cover 4 (Rows.lossG m c) (Rows.flushed_eq m c) Rows.cover) (ix2 i 0)

/-- The later lines take the mean of that array. -/
theorem kernel_result (c : Dev nD) :
    result (F := Ideal) m c = fun _ => meanLoss (xs m c) (labs m c) := by
  unfold result Wtail
  show StableHlo.after hostOps1 (Wexit m c) (Proc.devRef .tc main_v4) = _
  after_results
  funext j
  unfold Wexit
  rw [Function.update_self]
  simp only [Host.divf, Host.reduceAdd, Ideal.hostDivf_def, Ideal.hostReduceAdd_def, constant_apply]
  rw [Ideal.hostReduceAdd_total reducesTo_S8192x1_S_d0_1 (fun b => b.elim0)]
  unfold meanLoss
  refine congrArg (fun s => Ideal.div (c0 + s) cN) ?_
  refine Fintype.sum_equiv Rows.rowEquiv _ _ fun j => ?_
  have hj : j = ix2 (j 0) 0 := (Rows.rowEquiv.left_inv j).symm
  rw [hj]
  exact lossArr_apply m c (j 0)

end Cert.KernelIdeal.Val

end
-- ==== Proof.RefValue.lean ====
/-
  The reference's result is the specification's mean loss.

  Read one operation at a time, the reference computes: the row sums of squares ‖xᵢ‖² (from 0); the Gram matrix
  ⟨xᵢ, xⱼ⟩ as the product with the transpose; the expansion ‖xᵢ‖² + ‖xⱼ‖² - 2·⟨xᵢ, xⱼ⟩ clamped below at 0, and its
  square root; the equality bit of the labels of i and j; the two selects on that bit (distance or 0, +∞ or
  distance); the row maximum from -∞ and the row minimum from +∞, each a fold over the column coordinate; the
  margin between them clamped below at 0; and the sum of the 8192 rows from 0, divided by 8192. Each of these is
  the specification's term at the same indices, so the composed term is the mean loss, as the constant function on
  the scalar shape's one index.
-/
import proofs.«175456_j39599598469579_1_alg».proof.Proof.Gen.ReferenceIdeal.Read
import proofs.«175456_j39599598469579_1_alg».proof.Proof.Spec
import proofs.«175456_j39599598469579_1_alg».proof.Proof.SpecIdx
import Mathlib.Algebra.BigOperators.Group.Finset.Defs

noncomputable section

namespace Cert.RefValue

open Cert.ReferenceIdeal Cert.ReferenceIdeal.Gen Cert.ReferenceIdeal.Read Idealize.ShloMosaic
  Idealize.ShloMosaic.ValueIdx Cert.Spec

/-- A select on the equality bit of two words is the `if` on their equality. -/
theorem select_cmpi_eq {α : Type} (a b : BitVec 32) (A B : α) :
    Scalar.select (IntOp.cmpi .eq a b) A B = if a = b then A else B := by
  by_cases h : a = b
  · rw [if_pos h, IntOp.cmpi_eq.2 h, select_one]
  · rw [if_neg h, eq_zero_of_ne_one (fun h1 => h (IntOp.cmpi_eq.1 h1)), select_zero]

/-- The row sums of squares: row i's is ‖xᵢ‖². -/
theorem v1_eq (x0 : (⟨S8192x128, .f32⟩ : BufTy).Contents (Elt Ideal)) (i : Fin 8192) :
    val_main_v1 (F := Ideal) x0 (ix1 i) = sq (xOf x0) i := by
  have e : ∀ k : Fin 128, idx_main_v1 (ix1 i) k = ix2 i k := fun k =>
    funext fun a => Fin.ext (by match a with | ⟨0, _⟩ => rfl | ⟨1, _⟩ => rfl)
  rw [val_main_v1_apply]
  simp only [val_main_cst_apply, val_main_v0_apply, e, Ideal.ofBits_def, Ideal.mulf_def, Ideal.ofBits_zero_f32, zero_add]
  rfl

/-- The distance matrix at (i, j). -/
theorem v14_eq (x0 : (⟨S8192x128, .f32⟩ : BufTy).Contents (Elt Ideal)) (i j : Fin 8192) :
    val_main_v14 (F := Ideal) x0 (ix2 i j) = dist (xOf x0) i j := by
  have e4 : idx_main_v2 (idx_main_v4 (ix2 i j)) = ix1 i :=
    funext fun a => Fin.ext (by match a with | ⟨0, _⟩ => rfl)
  have e5 : idx_main_v3 (idx_main_v5 (ix2 i j)) = ix1 j :=
    funext fun a => Fin.ext (by match a with | ⟨0, _⟩ => rfl)
  have el : ∀ k : Fin 128, lidx_main_v8 (ix2 i j) k = ix2 i k := fun k =>
    funext fun a => Fin.ext (by match a with | ⟨0, _⟩ => rfl | ⟨1, _⟩ => rfl)
  have er : ∀ k : Fin 128, idx_main_v7 (ridx_main_v8 (ix2 i j) k) = ix2 j k := fun k =>
    funext fun a => Fin.ext (by match a with | ⟨0, _⟩ => rfl | ⟨1, _⟩ => rfl)
  rw [val_main_v14_apply, val_main_v13_apply, val_main_v11_apply, val_main_v6_apply, val_main_v4_apply,
    val_main_v2_apply, val_main_v5_apply, val_main_v3_apply, val_main_v10_apply, val_main_v9_apply,
    val_main_v8_apply, val_main_v12_apply, e4, e5, v1_eq, v1_eq]
  simp only [val_main_cst_0_apply, val_main_cst_1_apply, val_main_v7_apply, el, er, Ideal.ofBits_def,
    Ideal.hostUnary_sqrt_def, Ideal.maximumf_def, Ideal.subf_def, Ideal.addf_def, Ideal.mulf_def]
  rfl

/-- The same-label bit at (i, j). -/
theorem v19_eq (x1 : (⟨S8192, .i32⟩ : BufTy).Contents (Elt Ideal)) (i j : Fin 8192) :
    val_main_v19 (F := Ideal) x1 (ix2 i j) = IntOp.cmpi .eq (labOf x1 i) (labOf x1 j) := by
  have e17 : idx_main_v15 (idx_main_v17 (ix2 i j)) = ix1 i :=
    funext fun a => Fin.ext (by match a with | ⟨0, _⟩ => rfl)
  have e18 : idx_main_v16 (idx_main_v18 (ix2 i j)) = ix1 j :=
    funext fun a => Fin.ext (by match a with | ⟨0, _⟩ => rfl)
  rw [val_main_v19_apply, val_main_v17_apply, val_main_v15_apply, val_main_v18_apply, val_main_v16_apply, e17, e18]
  rfl

/-- The positive mask at (i, j). -/
theorem v20_eq (x0 : (⟨S8192x128, .f32⟩ : BufTy).Contents (Elt Ideal)) (x1 : (⟨S8192, .i32⟩ : BufTy).Contents (Elt Ideal))
    (i j : Fin 8192) : val_main_v20 (F := Ideal) x0 x1 (ix2 i j) = posMasked (xOf x0) (labOf x1) i j := by
  rw [val_main_v20_apply, v19_eq, v14_eq, val_main_call0_v1_apply, val_main_call0_v0_apply, val_main_cst_2_apply,
    select_cmpi_eq]
  rfl

/-- The negative mask at (i, j). -/
theorem v22_eq (x0 : (⟨S8192x128, .f32⟩ : BufTy).Contents (Elt Ideal)) (x1 : (⟨S8192, .i32⟩ : BufTy).Contents (Elt Ideal))
    (i j : Fin 8192) : val_main_v22 (F := Ideal) x0 x1 (ix2 i j) = negMasked (xOf x0) (labOf x1) i j := by
  rw [val_main_v22_apply, v19_eq, v14_eq, val_main_call1_v1_apply, val_main_call1_v0_apply, val_main_cst_4_apply,
    select_cmpi_eq]
  rfl

/-- The reduction over the column axis of the square matrix, as the shape fact the fold over coordinates names. -/
theorem reduces_cols : S8192x8192.Reduces [1] S8192 := by decide

/-- The reduced index i with column k put back is (i, k). -/
theorem lift_ix2 (i : Fin 8192) (k : Fin (S8192x8192.size 1)) :
    reduces_cols.lift (ix1 i) k = ix2 i (⟨k.val, k.isLt⟩ : Fin 8192) := by
  funext c; apply Fin.ext
  fin_cases c <;> rfl

/-- The hardest positive of row i: the maximum of the positive mask over the columns, from -∞. -/
theorem v21_eq (x0 : (⟨S8192x128, .f32⟩ : BufTy).Contents (Elt Ideal)) (x1 : (⟨S8192, .i32⟩ : BufTy).Contents (Elt Ideal))
    (i : Fin 8192) : val_main_v21 (F := Ideal) x0 x1 (ix1 i) = hardPos (xOf x0) (labOf x1) i := by
  unfold val_main_v21
  rw [Host.reduce_eq_fold_single FloatOps.maximumf _ _ reducesTo_S8192x8192_S8192_d1 reduces_cols h_S_]
  have hf : (val_main_v20 (F := Ideal) x0 x1 ∘ reduces_cols.lift (ix1 i)) = posMasked (xOf x0) (labOf x1) i :=
    funext fun k => (congrArg (val_main_v20 (F := Ideal) x0 x1) (lift_ix2 i k)).trans (v20_eq x0 x1 i _)
  exact congrArg (fun f => Finset.fold max cNegInf f (Finset.univ : Finset (Fin 8192))) hf

/-- The hardest negative of row i: the minimum of the negative mask over the columns, from +∞. -/
theorem v23_eq (x0 : (⟨S8192x128, .f32⟩ : BufTy).Contents (Elt Ideal)) (x1 : (⟨S8192, .i32⟩ : BufTy).Contents (Elt Ideal))
    (i : Fin 8192) : val_main_v23 (F := Ideal) x0 x1 (ix1 i) = hardNeg (xOf x0) (labOf x1) i := by
  unfold val_main_v23
  rw [Host.reduce_eq_fold_single FloatOps.minimumf _ _ reducesTo_S8192x8192_S8192_d1 reduces_cols h_S_]
  have hf : (val_main_v22 (F := Ideal) x0 x1 ∘ reduces_cols.lift (ix1 i)) = negMasked (xOf x0) (labOf x1) i :=
    funext fun k => (congrArg (val_main_v22 (F := Ideal) x0 x1) (lift_ix2 i k)).trans (v22_eq x0 x1 i _)
  exact congrArg (fun f => Finset.fold min cInf f (Finset.univ : Finset (Fin 8192))) hf

/-- The loss of row i: the clamped margin between its hardest positive and hardest negative. -/
theorem v27_eq (x0 : (⟨S8192x128, .f32⟩ : BufTy).Contents (Elt Ideal)) (x1 : (⟨S8192, .i32⟩ : BufTy).Contents (Elt Ideal))
    (i : Fin 8192) : val_main_v27 (F := Ideal) x0 x1 (ix1 i) = loss (xOf x0) (labOf x1) i := by
  rw [val_main_v27_apply, val_main_v26_apply, val_main_v24_apply, v21_eq, v23_eq, val_main_v25_apply,
    val_main_cst_6_apply, val_main_call2_v0_apply, val_main_call2_cst_apply]
  rfl

/-- The rows as the indices of the rank-1 shape. -/
def idxEquiv1 : Fin 8192 ≃ S8192.Idx where
  toFun i := ix1 i
  invFun j := j 0
  left_inv _ := rfl
  right_inv j := (eq_ix1 j).symm

/-- The reference's result as a function of its two arguments: the mean of the 8192 losses. -/
theorem result_eq (x0 : (⟨S8192x128, .f32⟩ : BufTy).Contents (Elt Ideal)) (x1 : (⟨S8192, .i32⟩ : BufTy).Contents (Elt Ideal)) :
    val_main_v29 (F := Ideal) x0 x1 = fun _ => meanLoss (xOf x0) (labOf x1) := by
  funext q
  have hs : ∑ j : S8192.Idx, val_main_v27 (F := Ideal) x0 x1 j = ∑ i : Fin 8192, loss (xOf x0) (labOf x1) i :=
    (Equiv.sum_comp idxEquiv1 (val_main_v27 (F := Ideal) x0 x1)).symm.trans
      (Finset.sum_congr rfl fun i _ => v27_eq x0 x1 i)
  rw [val_main_v29_apply, val_main_v28_apply, val_main_cst_7_apply, val_main_cst_8_apply, hs]
  rfl

open Idealize.ShloMosaic.TcCoe Idealize.SL.Sem in
/-- The run of the reference, on every device, ends with its result buffer at the specification's mean loss of its
    two arguments, and with the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ fun r => ∀ c : Dev Cert.ReferenceIdeal.nD,
      r.2.mem ((c.tc : Thread _ _).loc Cert.ReferenceIdeal.main_v29)
          = (fun _ => Cert.Spec.meanLoss (Cert.Spec.xOf (m ((c.tc : Thread _ _).loc Cert.ReferenceIdeal.main_arg0)))
              (Cert.Spec.labOf (m ((c.tc : Thread _ _).loc Cert.ReferenceIdeal.main_arg1))))
      ∧ r.2.mem ((c.tc : Thread _ _).loc Cert.ReferenceIdeal.main_arg0) = m ((c.tc : Thread _ _).loc Cert.ReferenceIdeal.main_arg0)
      ∧ r.2.mem ((c.tc : Thread _ _).loc Cert.ReferenceIdeal.main_arg1) = m ((c.tc : Thread _ _).loc Cert.ReferenceIdeal.main_arg1) :=
  (θ_run Cert.ReferenceIdeal.defs _ _).mono
    (fun _ h c => ⟨(h c).1.trans ((val_main_v29_eq _ _).trans (result_eq _ _)), (h c).2⟩)
    (Cert.ReferenceIdeal.Value.run (F := Ideal) m ρ)

end Cert.RefValue

end
-- ==== Proof.lean ====
/-
  The batch-hard triplet loss of 8192 embeddings computed tile by tile agrees, over the extended reals, with its
  whole-array reference.

  The kernel walks an 8 × 16 grid of (row tile, column tile) pairs of ONE array of embeddings, keeps a running maximum
  of the same-label distances and a running minimum of the other-label distances per row across the column tiles,
  and emits max(hardest positive - hardest negative + margin, 0) per row at the last column tile; the mean of the
  rows is taken afterwards. The reference forms the whole 8192 × 8192 distance matrix, takes the two row reductions at
  once, and the same mean. Both are the specification's `meanLoss` of the embeddings and the labels: the kernel's side
  because a maximum (minimum) taken tile by tile from 0 (from +∞) is the maximum (minimum) over all columns when no
  entry is negative, the reference's side by reading its operations one at a time. No float is rounded at this
  instance, so the kernel's narrowing of the matmul operands changes nothing, and the idealized kernel is the
  printed one read at the extended reals (nothing was rewritten, so there is nothing to preserve).

  The three programs run to the end without a fault and leave their arguments as they were: the two kernel programs by
  the launch of their one region (the embeddings' buffer is shared by two of the region's windows, each holding half
  of it), the reference by its straight-line run.
-/
import proofs.«175456_j39599598469579_1_alg».proof.Defs
import proofs.«175456_j39599598469579_1_alg».proof.Proof.Gen.Kernel
import proofs.«175456_j39599598469579_1_alg».proof.Proof.Gen.KernelIdeal
import proofs.«175456_j39599598469579_1_alg».proof.Proof.Gen.ReferenceIdeal
import proofs.«175456_j39599598469579_1_alg».proof.Proof.Gen.Pre_finite_inputs
import proofs.«175456_j39599598469579_1_alg».proof.Proof.KB.Run
import proofs.«175456_j39599598469579_1_alg».proof.Proof.KI.Run
import proofs.«175456_j39599598469579_1_alg».proof.Proof.KV.Value
import proofs.«175456_j39599598469579_1_alg».proof.Proof.RefValue

noncomputable section

namespace Cert.Proof

open Idealize.ShloMosaic Idealize.ShloMosaic.TcCoe Idealize.SL.Sem

/-- The word-level kernel program runs and keeps its arguments. -/
theorem frame_k : Cert.frame_Kernel := fun m ρ _ =>
  (θ_run Cert.Kernel.defs _ _).mono (fun _ h c => ⟨(h c).2.1, (h c).2.2⟩) (Cert.Kernel.Hand.run_main (F := Bits) m ρ)

/-- So does the idealized one. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- And the reference: its straight-line run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the embeddings and the labels both programs end at the specification's mean loss. -/
theorem algebraic : Cert.algebraic_KernelIdeal_ReferenceIdeal := by
  intro m ρ m' ρ' _ hagree
  refine ⟨fun c => fun _ => Cert.Spec.meanLoss (Cert.KernelIdeal.Val.xs m c) (Cert.KernelIdeal.Val.labs m c), ?_, ?_⟩
  · exact (θ_run Cert.KernelIdeal.defs _ _).mono
      (fun _ h c => ⟨(h c).1.trans (Cert.KernelIdeal.Val.kernel_result m c), (h c).2⟩)
      (Cert.KernelIdeal.Hand.run_main (F := Ideal) m ρ)
  · refine (θ_run Cert.ReferenceIdeal.defs _ _).mono (fun _ h c => ⟨?_, (h c).2⟩) (Cert.RefValue.run m' ρ')
    rw [(h c).1, (hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
